-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4000x80 : Shape := ⟨3, ![64, 4000, 80]⟩
abbrev S64x4000 : Shape := ⟨2, ![64, 4000]⟩
abbrev S80 : Shape := ⟨1, ![80]⟩
abbrev S_ : Shape := ⟨0, ![]⟩

class Facts : Prop where
  bcast_S_S64x4000x80 : S_.BroadcastsInDim S64x4000x80 (![] : Fin 0 → Fin S64x4000x80.rank)
  reducesTo_S64x4000x80_S_d0_1_2 : S64x4000x80.ReducesTo [0, 1, 2] S_
  h_S_ : 0 < S_.numel
  bcast_S_S64x4000 : S_.BroadcastsInDim S64x4000 (![] : Fin 0 → Fin S64x4000.rank)
  reducesTo_S64x4000_S_d0_1 : S64x4000.ReducesTo [0, 1] S_
  bcast_S_S80 : S_.BroadcastsInDim S80 (![] : Fin 0 → Fin S80.rank)
  reducesTo_S80_S_d0 : S80.ReducesTo [0] S_

variable [Facts]

def fn_part1 {F : FTy → Type} [FloatOps F] (main_v13 : IVec S_ 1) (main_v16 : IVec S80 1) : IVec S_ 1 :=
  let main_c_5 : IVec S_ 1 := constantI S_ 1 1#1
  let main_v17 : IVec S_ 1 := (fun x v => Host.reduce IntOp.andi x v reducesTo_S80_S_d0 h_S_) main_v16 main_c_5
  let main_v18 : IVec S_ 1 := andi main_v13 main_v17
  main_v18

def fn {F : FTy → Type} [FloatOps F] (main_arg0 : FVec F S64x4000x80 .f32) (main_arg1 : FVec F S64x4000x80 .f32) (main_arg2 : FVec F S64x4000 .f32) (main_arg3 : FVec F S80 .f32) : IVec S_ 1 :=
  let main_v0 : FVec F S64x4000x80 .f32 := Host.absf main_arg0
  let main_cst : FVec F S_ .f32 := constant S_ .f32 0x7F800000#32
  let main_v1 : FVec F S64x4000x80 .f32 := broadcastInDim S64x4000x80 ![] bcast_S_S64x4000x80 main_cst
  let main_v2 : IVec S64x4000x80 1 := cmpf .olt main_v0 main_v1
  let main_c : IVec S_ 1 := constantI S_ 1 1#1
  let main_v3 : IVec S_ 1 := (fun x v => Host.reduce IntOp.andi x v reducesTo_S64x4000x80_S_d0_1_2 h_S_) main_v2 main_c
  let main_v4 : FVec F S64x4000x80 .f32 := Host.absf main_arg1
  let main_cst_0 : FVec F S_ .f32 := constant S_ .f32 0x7F800000#32
  let main_v5 : FVec F S64x4000x80 .f32 := broadcastInDim S64x4000x80 ![] bcast_S_S64x4000x80 main_cst_0
  let main_v6 : IVec S64x4000x80 1 := cmpf .olt main_v4 main_v5
  let main_c_1 : IVec S_ 1 := constantI S_ 1 1#1
  let main_v7 : IVec S_ 1 := (fun x v => Host.reduce IntOp.andi x v reducesTo_S64x4000x80_S_d0_1_2 h_S_) main_v6 main_c_1
  let main_v8 : IVec S_ 1 := andi main_v3 main_v7
  let main_v9 : FVec F S64x4000 .f32 := Host.absf main_arg2
  let main_cst_2 : FVec F S_ .f32 := constant S_ .f32 0x7F800000#32
  let main_v10 : FVec F S64x4000 .f32 := broadcastInDim S64x4000 ![] bcast_S_S64x4000 main_cst_2
  let main_v11 : IVec S64x4000 1 := cmpf .olt main_v9 main_v10
  let main_c_3 : IVec S_ 1 := constantI S_ 1 1#1
  let main_v12 : IVec S_ 1 := (fun x v => Host.reduce IntOp.andi x v reducesTo_S64x4000_S_d0_1 h_S_) main_v11 main_c_3
  let main_v13 : IVec S_ 1 := andi main_v8 main_v12
  let main_v14 : FVec F S80 .f32 := Host.absf main_arg3
  let main_cst_4 : FVec F S_ .f32 := constant S_ .f32 0x7F800000#32
  let main_v15 : FVec F S80 .f32 := broadcastInDim S80 ![] bcast_S_S80 main_cst_4
  let main_v16 : IVec S80 1 := cmpf .olt main_v14 main_v15
  fn_part1 (F := F) main_v13 main_v16
-- ==== Kernel.lean ====
abbrev S64x4000x80 : Shape := ⟨3, ![64, 4000, 80]⟩
abbrev S64x4000 : Shape := ⟨2, ![64, 4000]⟩
abbrev S80 : Shape := ⟨1, ![80]⟩
abbrev S_ : Shape := ⟨0, ![]⟩
abbrev S1x1 : Shape := ⟨2, ![1, 1]⟩
abbrev S64x4000x1 : Shape := ⟨3, ![64, 4000, 1]⟩
abbrev S1x1x80 : Shape := ⟨3, ![1, 1, 80]⟩
abbrev S1x4000x80 : Shape := ⟨3, ![1, 4000, 80]⟩
abbrev S1x4000x1 : Shape := ⟨3, ![1, 4000, 1]⟩
abbrev S8x128 : Shape := ⟨2, ![8, 128]⟩
abbrev S1x80 : Shape := ⟨2, ![1, 80]⟩
abbrev S1x1x1 : Shape := ⟨3, ![1, 1, 1]⟩
abbrev S1x3999x80 : Shape := ⟨3, ![1, 3999, 80]⟩
abbrev S1x3999x1 : Shape := ⟨3, ![1, 3999, 1]⟩
abbrev S1x3998x80 : Shape := ⟨3, ![1, 3998, 80]⟩
abbrev S1x3998x1 : Shape := ⟨3, ![1, 3998, 1]⟩
abbrev S1x4000 : Shape := ⟨2, ![1, 4000]⟩
abbrev S1 : Shape := ⟨1, ![1]⟩

abbrev nBuf : Space → Nat
  | .hbm => 13
  | .vmem => 10
  | .smem => 0
  | _ => 0

abbrev bufTy : (tb : Table) → Fin (tcTables nBuf tb) → BufTy
  | .hbm, ⟨0, _⟩ => ⟨S64x4000x80, .f32⟩
  | .hbm, ⟨1, _⟩ => ⟨S64x4000x80, .f32⟩
  | .hbm, ⟨2, _⟩ => ⟨S64x4000, .f32⟩
  | .hbm, ⟨3, _⟩ => ⟨S80, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x1, .f32⟩
  | .hbm, ⟨9, _⟩ => ⟨S64x4000x1, .f32⟩
  | .hbm, ⟨10, _⟩ => ⟨S1x1x80, .f32⟩
  | .hbm, ⟨11, _⟩ => ⟨S1x1, .f32⟩
  | .hbm, ⟨12, _⟩ => ⟨S_, .f32⟩
  | .local _ .vmem, ⟨0, _⟩ => ⟨S1x4000x80, .f32⟩
  | .local _ .vmem, ⟨1, _⟩ => ⟨S1x4000x80, .f32⟩
  | .local _ .vmem, ⟨2, _⟩ => ⟨S1x4000x80, .f32⟩
  | .local _ .vmem, ⟨3, _⟩ => ⟨S1x4000x80, .f32⟩
  | .local _ .vmem, ⟨4, _⟩ => ⟨S1x4000x1, .f32⟩
  | .local _ .vmem, ⟨5, _⟩ => ⟨S1x4000x1, .f32⟩
  | .local _ .vmem, ⟨6, _⟩ => ⟨S1x1x80, .f32⟩
  | .local _ .vmem, ⟨7, _⟩ => ⟨S1x1, .f32⟩
  | .local _ .vmem, ⟨8, _⟩ => ⟨S1x1, .f32⟩
  | .local _ .vmem, ⟨9, _⟩ => ⟨S8x128, .f32⟩
  | _, _ => ⟨S64x4000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v172 : BitVec 1 := Scalar.cmpi .eq arg0 c63_i32
  let v173 : BitVec 32 := Scalar.extui v172
  let c0_i32_72 : BitVec 32 := 0#32
  let v174 : BitVec 1 := Scalar.cmpi .ne v173 c0_i32_72
  v174

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4000x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4000x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  reducesTo_S80_S_d0 : S80.ReducesTo [0] S_
  h_S_ : 0 < S_.numel
  shapeCasts_S_S1x1 : S_.ShapeCasts S1x1
  shapeCasts_S64x4000_S64x4000x1 : S64x4000.ShapeCasts S64x4000x1
  shapeCasts_S80_S1x1x80 : S80.ShapeCasts S1x1x80
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x4000x80_S1x4000x80_0_0_0 : ∀ a, (![0, 0, 0] : Fin 3 → Nat) a + S1x4000x80.size a ≤ S1x4000x80.size a
  h_S1x4000x80 : 0 < S1x4000x80.numel
  inb_S1x4000x1_S1x4000x1_0_0_0 : ∀ a, (![0, 0, 0] : Fin 3 → Nat) a + S1x4000x1.size a ≤ S1x4000x1.size a
  h_S1x4000x1 : 0 < S1x4000x1.numel
  shapeCasts_S1x4000x1_S1x4000x1 : S1x4000x1.ShapeCasts S1x4000x1
  inb_S1x1x80_S1x1x80_0_0_0 : ∀ a, (![0, 0, 0] : Fin 3 → Nat) a + S1x1x80.size a ≤ S1x1x80.size a
  h_S1x1x80 : 0 < S1x1x80.numel
  shapeCasts_S1x1x80_S1x1x80 : S1x1x80.ShapeCasts S1x1x80
  broadcasts_S1x4000x1_S1x4000x80 : S1x4000x1.Broadcasts S1x4000x80
  reduces_S1x4000x80_S1x80 : S1x4000x80.Reduces [1] S1x80
  shapeCasts_S1x80_S1x1x80 : S1x80.ShapeCasts S1x1x80
  reduces_S1x1x80_S1x1 : S1x1x80.Reduces [2] S1x1
  shapeCasts_S1x1_S1x1x1 : S1x1.ShapeCasts S1x1x1
  shapeCasts_S1x1x1_S1x1 : S1x1x1.ShapeCasts S1x1
  broadcasts_S1x1x80_S1x4000x80 : S1x1x80.Broadcasts S1x4000x80
  reduces_S1x4000x1_S1x1 : S1x4000x1.Reduces [1] S1x1
  reduces_S1x1x1_S1x1 : S1x1x1.Reduces [2] S1x1
  slices_S1x4000x80_o0_1_0_S1x3999x80 : S1x4000x80.Slices ![0, 1, 0] S1x3999x80
  slices_S1x4000x80_o0_0_0_S1x3999x80 : S1x4000x80.Slices ![0, 0, 0] S1x3999x80
  slices_S1x4000x1_o0_1_0_S1x3999x1 : S1x4000x1.Slices ![0, 1, 0] S1x3999x1
  slices_S1x4000x1_o0_0_0_S1x3999x1 : S1x4000x1.Slices ![0, 0, 0] S1x3999x1
  broadcasts_S1x3999x1_S1x3999x80 : S1x3999x1.Broadcasts S1x3999x80
  reduces_S1x3999x80_S1x80 : S1x3999x80.Reduces [1] S1x80
  reduces_S1x3999x1_S1x1 : S1x3999x1.Reduces [1] S1x1
  slices_S1x3999x80_o0_1_0_S1x3998x80 : S1x3999x80.Slices ![0, 1, 0] S1x3998x80
  slices_S1x3999x80_o0_0_0_S1x3998x80 : S1x3999x80.Slices ![0, 0, 0] S1x3998x80
  slices_S1x4000x1_o0_2_0_S1x3998x1 : S1x4000x1.Slices ![0, 2, 0] S1x3998x1
  slices_S1x4000x1_o0_1_0_S1x3998x1 : S1x4000x1.Slices ![0, 1, 0] S1x3998x1
  slices_S1x4000x1_o0_0_0_S1x3998x1 : S1x4000x1.Slices ![0, 0, 0] S1x3998x1
  broadcasts_S1x3998x1_S1x3998x80 : S1x3998x1.Broadcasts S1x3998x80
  reduces_S1x3998x80_S1x80 : S1x3998x80.Reduces [1] S1x80
  reduces_S1x3998x1_S1x1 : S1x3998x1.Reduces [1] S1x1
  reduces_S1x4000x80_S1x4000 : S1x4000x80.Reduces [2] S1x4000
  shapeCasts_S1x4000x1_S1x4000 : S1x4000x1.ShapeCasts S1x4000
  reduces_S1x4000_S1 : S1x4000.Reduces [1] S1
  shapeCasts_S1_S1x1 : S1.ShapeCasts S1x1
  inb_S8x128_S1x1_0_0 : ∀ a, (![0, 0] : Fin 2 → Nat) a + S1x1.size a ≤ S8x128.size a
  h_S1x1 : 0 < S1x1.numel
  shapeCasts_S1x1_S1x1 : S1x1.ShapeCasts S1x1
  inb_S8x128_S1x1_0_1 : ∀ a, (![0, 1] : Fin 2 → Nat) a + S1x1.size a ≤ S8x128.size a
  inb_S8x128_S1x1_0_2 : ∀ a, (![0, 2] : Fin 2 → Nat) a + S1x1.size a ≤ S8x128.size a
  inb_S8x128_S1x1_0_3 : ∀ a, (![0, 3] : Fin 2 → Nat) a + S1x1.size a ≤ S8x128.size a
  inb_S8x128_S1x1_0_4 : ∀ a, (![0, 4] : Fin 2 → Nat) a + S1x1.size a ≤ S8x128.size a
  inb_S8x128_S1x1_0_5 : ∀ a, (![0, 5] : Fin 2 → Nat) a + S1x1.size a ≤ S8x128.size a
  inb_S8x128_S1x1_0_6 : ∀ a, (![0, 6] : Fin 2 → Nat) a + S1x1.size a ≤ S8x128.size a
  inb_S8x128_S1x1_0_7 : ∀ a, (![0, 7] : Fin 2 → Nat) a + S1x1.size a ≤ S8x128.size a
  inb_S8x128_S1x1_0_8 : ∀ a, (![0, 8] : Fin 2 → Nat) a + S1x1.size a ≤ S8x128.size a
  inb_S8x128_S1x1_0_9 : ∀ a, (![0, 9] : Fin 2 → Nat) a + S1x1.size a ≤ S8x128.size a
  inb_S8x128_S1x1_0_10 : ∀ a, (![0, 10] : Fin 2 → Nat) a + S1x1.size a ≤ S8x128.size a
  inb_S1x1_S1x1_0_0 : ∀ a, (![0, 0] : Fin 2 → Nat) a + S1x1.size a ≤ S1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4000x80.size a ≤ S64x4000x80.size a
  hwx0_0 : ∀ i : grid0.Coords, EltTy.bits .f32 = 32 ∨ (Rect.block (s := S64x4000x80) S1x4000x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4000x80.size a ≤ S64x4000x80.size a
  hwx0_1 : ∀ i : grid0.Coords, EltTy.bits .f32 = 32 ∨ (Rect.block (s := S64x4000x80) S1x4000x80.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4000x1.size a ≤ S64x4000x1.size a
  hwx0_2 : ∀ i : grid0.Coords, EltTy.bits .f32 = 32 ∨ (Rect.block (s := S64x4000x1) S1x4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x80.size a ≤ S1x1x80.size a
  hwx0_3 : ∀ i : grid0.Coords, EltTy.bits .f32 = 32 ∨ (Rect.block (s := S1x1x80) S1x1x80.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

abbrev win0_0 : Pipeline.Window sig grid0 :=
  Pipeline.Window.ofSpec (Memref.whole main_arg0) S1x4000x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4000x80.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1x80.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S64x4000x80 : Shape := ⟨3, ![64, 4000, 80]⟩
abbrev S64x4000 : Shape := ⟨2, ![64, 4000]⟩
abbrev S80 : Shape := ⟨1, ![80]⟩
abbrev S64x4000x1 : Shape := ⟨3, ![64, 4000, 1]⟩
abbrev S_ : Shape := ⟨0, ![]⟩
abbrev S64x3999x80 : Shape := ⟨3, ![64, 3999, 80]⟩
abbrev S64x3999 : Shape := ⟨2, ![64, 3999]⟩
abbrev S64x3999x1 : Shape := ⟨3, ![64, 3999, 1]⟩
abbrev S64x3998x80 : Shape := ⟨3, ![64, 3998, 80]⟩
abbrev S64x3998 : Shape := ⟨2, ![64, 3998]⟩
abbrev S64x3998x1 : Shape := ⟨3, ![64, 3998, 1]⟩
abbrev S1x1x80 : Shape := ⟨3, ![1, 1, 80]⟩

abbrev nBuf : Space → Nat
  | .hbm => 141
  | .vmem => 0
  | .smem => 0
  | _ => 0

abbrev hbmTy0_0 (i : Nat) : BufTy := match i % 128 with
  | 0 => ⟨S64x4000x80, .f32⟩
  | 1 => ⟨S64x4000x80, .f32⟩
  | 2 => ⟨S64x4000, .f32⟩
  | 3 => ⟨S80, .f32⟩
  | 4 => ⟨S64x4000x1, .f32⟩
  | 5 => ⟨S64x4000x80, .f32⟩
  | 6 => ⟨S64x4000x80, .f32⟩
  | 7 => ⟨S64x4000x80, .f32⟩
  | 8 => ⟨S_, .f32⟩
  | 9 => ⟨S_, .f32⟩
  | 10 => ⟨S_, .f32⟩
  | 11 => ⟨S_, .f32⟩
  | 12 => ⟨S64x4000x80, .f32⟩
  | 13 => ⟨S64x4000x80, .f32⟩
  | 14 => ⟨S_, .f32⟩
  | 15 => ⟨S_, .f32⟩
  | 16 => ⟨S_, .f32⟩
  | 17 => ⟨S64x3999x80, .f32⟩
  | 18 => ⟨S64x3999x80, .f32⟩
  | 19 => ⟨S64x3999x80, .f32⟩
  | 20 => ⟨S64x3999x80, .f32⟩
  | 21 => ⟨S64x3999x80, .f32⟩
  | 22 => ⟨S64x3999x80, .f32⟩
  | 23 => ⟨S64x3999, .f32⟩
  | 24 => ⟨S64x3999, .f32⟩
  | 25 => ⟨S64x3999, .f32⟩
  | 26 => ⟨S64x3999x1, .f32⟩
  | 27 => ⟨S64x3999x80, .f32⟩
  | 28 => ⟨S64x3999x80, .f32⟩
  | 29 => ⟨S64x3999x80, .f32⟩
  | 30 => ⟨S_, .f32⟩
  | 31 => ⟨S_, .f32⟩
  | 32 => ⟨S_, .f32⟩
  | 33 => ⟨S_, .f32⟩
  | 34 => ⟨S64x3999x80, .f32⟩
  | 35 => ⟨S64x3999x80, .f32⟩
  | 36 => ⟨S_, .f32⟩
  | 37 => ⟨S_, .f32⟩
  | 38 => ⟨S_, .f32⟩
  | 39 => ⟨S64x3998x80, .f32⟩
  | 40 => ⟨S64x3998x80, .f32⟩
  | 41 => ⟨S64x3998x80, .f32⟩
  | 42 => ⟨S64x3998x80, .f32⟩
  | 43 => ⟨S64x3998x80, .f32⟩
  | 44 => ⟨S64x3998x80, .f32⟩
  | 45 => ⟨S64x3998, .f32⟩
  | 46 => ⟨S64x3998, .f32⟩
  | 47 => ⟨S64x3998, .f32⟩
  | 48 => ⟨S64x3998, .f32⟩
  | 49 => ⟨S64x3998, .f32⟩
  | 50 => ⟨S64x3998x1, .f32⟩
  | 51 => ⟨S64x3998x80, .f32⟩
  | 52 => ⟨S64x3998x80, .f32⟩
  | 53 => ⟨S64x3998x80, .f32⟩
  | 54 => ⟨S_, .f32⟩
  | 55 => ⟨S_, .f32⟩
  | 56 => ⟨S_, .f32⟩
  | 57 => ⟨S_, .f32⟩
  | 58 => ⟨S64x3998x80, .f32⟩
  | 59 => ⟨S64x3998x80, .f32⟩
  | 60 => ⟨S_, .f32⟩
  | 61 => ⟨S_, .f32⟩
  | 62 => ⟨S_, .f32⟩
  | 63 => ⟨S64x4000x80, .f32⟩
  | 64 => ⟨S64x4000x80, .f32⟩
  | 65 => ⟨S64x4000x80, .f32⟩
  | 66 => ⟨S64x4000x80, .f32⟩
  | 67 => ⟨S64x4000x80, .f32⟩
  | 68 => ⟨S64x4000x80, .f32⟩
  | 69 => ⟨S_, .f32⟩
  | 70 => ⟨S_, .f32⟩
  | 71 => ⟨S_, .f32⟩
  | 72 => ⟨S_, .f32⟩
  | 73 => ⟨S64x4000x80, .f32⟩
  | 74 => ⟨S_, .f32⟩
  | 75 => ⟨S_, .f32⟩
  | 76 => ⟨S_, .f32⟩
  | 77 => ⟨S_, .f32⟩
  | 78 => ⟨S64x4000x80, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S1x1x80, .f32⟩
  | 87 => ⟨S64x4000x80, .f32⟩
  | 88 => ⟨S64x4000x80, .f32⟩
  | 89 => ⟨S64x4000x80, .f32⟩
  | 90 => ⟨S_, .f32⟩
  | 91 => ⟨S_, .f32⟩
  | 92 => ⟨S_, .f32⟩
  | 93 => ⟨S_, .f32⟩
  | 94 => ⟨S64x4000x80, .f32⟩
  | 95 => ⟨S64x4000x80, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S64x4000, .f32⟩
  | 106 => ⟨S_, .f32⟩
  | 107 => ⟨S64x4000, .f32⟩
  | 108 => ⟨S64x4000, .f32⟩
  | 109 => ⟨S_, .f32⟩
  | 110 => ⟨S64x4000, .f32⟩
  | 111 => ⟨S_, .f32⟩
  | 112 => ⟨S64x4000, .f32⟩
  | 113 => ⟨S64x4000, .f32⟩
  | 114 => ⟨S64x4000, .f32⟩
  | 115 => ⟨S64x4000, .f32⟩
  | 116 => ⟨S_, .f32⟩
  | 117 => ⟨S_, .f32⟩
  | 118 => ⟨S_, .f32⟩
  | 119 => ⟨S_, .f32⟩
  | 120 => ⟨S64x4000, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S64x4000x80, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | _ => ⟨S64x4000x80, .f32⟩

abbrev hbmTy (i : Nat) : BufTy := match i / 128 with
  | 0 => hbmTy0_0 i
  | 1 => hbmTy0_1 i
  | _ => ⟨S64x4000x80, .f32⟩

abbrev bufTy : (tb : Table) → Fin (tcTables nBuf tb) → BufTy
  | .hbm, ⟨i, _⟩ => hbmTy i
  | _, _ => ⟨S64x4000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_7 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_8 : Ref sig .tc := ⟨.hbm, 69, rfl⟩
abbrev main_v56 : Ref sig .tc := ⟨.hbm, 70, rfl⟩
abbrev main_cst_9 : Ref sig .tc := ⟨.hbm, 71, rfl⟩
abbrev main_v57 : Ref sig .tc := ⟨.hbm, 72, rfl⟩
abbrev main_v58 : Ref sig .tc := ⟨.hbm, 73, rfl⟩
abbrev main_cst_10 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_11 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_12 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_13 : Ref sig .tc := ⟨.hbm, 90, rfl⟩
abbrev main_v72 : Ref sig .tc := ⟨.hbm, 91, rfl⟩
abbrev main_cst_14 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_15 : Ref sig .tc := ⟨.hbm, 96, rfl⟩
abbrev main_v76 : Ref sig .tc := ⟨.hbm, 97, rfl⟩
abbrev main_v77 : Ref sig .tc := ⟨.hbm, 98, rfl⟩
abbrev main_cst_16 : Ref sig .tc := ⟨.hbm, 99, rfl⟩
abbrev main_v78 : Ref sig .tc := ⟨.hbm, 100, rfl⟩
abbrev main_cst_17 : Ref sig .tc := ⟨.hbm, 101, rfl⟩
abbrev main_v79 : Ref sig .tc := ⟨.hbm, 102, rfl⟩
abbrev main_v80 : Ref sig .tc := ⟨.hbm, 103, rfl⟩
abbrev main_cst_18 : Ref sig .tc := ⟨.hbm, 104, rfl⟩
abbrev main_v81 : Ref sig .tc := ⟨.hbm, 105, rfl⟩
abbrev main_cst_19 : Ref sig .tc := ⟨.hbm, 106, rfl⟩
abbrev main_v82 : Ref sig .tc := ⟨.hbm, 107, rfl⟩
abbrev main_v83 : Ref sig .tc := ⟨.hbm, 108, rfl⟩
abbrev main_cst_20 : Ref sig .tc := ⟨.hbm, 109, rfl⟩
abbrev main_v84 : Ref sig .tc := ⟨.hbm, 110, rfl⟩
abbrev main_cst_21 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_22 : Ref sig .tc := ⟨.hbm, 116, rfl⟩
abbrev main_v89 : Ref sig .tc := ⟨.hbm, 117, rfl⟩
abbrev main_cst_23 : Ref sig .tc := ⟨.hbm, 118, rfl⟩
abbrev main_v90 : Ref sig .tc := ⟨.hbm, 119, rfl⟩
abbrev main_v91 : Ref sig .tc := ⟨.hbm, 120, rfl⟩
abbrev main_cst_24 : Ref sig .tc := ⟨.hbm, 121, rfl⟩
abbrev main_v92 : Ref sig .tc := ⟨.hbm, 122, rfl⟩
abbrev main_v93 : Ref sig .tc := ⟨.hbm, 123, rfl⟩
abbrev main_cst_25 : Ref sig .tc := ⟨.hbm, 124, rfl⟩
abbrev main_v94 : Ref sig .tc := ⟨.hbm, 125, rfl⟩
abbrev main_cst_26 : Ref sig .tc := ⟨.hbm, 126, rfl⟩
abbrev main_v95 : Ref sig .tc := ⟨.hbm, 127, rfl⟩
abbrev main_v96 : Ref sig .tc := ⟨.hbm, 128, rfl⟩
abbrev main_cst_27 : Ref sig .tc := ⟨.hbm, 129, rfl⟩
abbrev main_v97 : Ref sig .tc := ⟨.hbm, 130, rfl⟩
abbrev main_v98 : Ref sig .tc := ⟨.hbm, 131, rfl⟩
abbrev main_cst_28 : Ref sig .tc := ⟨.hbm, 132, rfl⟩
abbrev main_v99 : Ref sig .tc := ⟨.hbm, 133, rfl⟩
abbrev main_v100 : Ref sig .tc := ⟨.hbm, 134, rfl⟩
abbrev main_cst_29 : Ref sig .tc := ⟨.hbm, 135, rfl⟩
abbrev main_v101 : Ref sig .tc := ⟨.hbm, 136, rfl⟩
abbrev main_v102 : Ref sig .tc := ⟨.hbm, 137, rfl⟩
abbrev main_cst_30 : Ref sig .tc := ⟨.hbm, 138, rfl⟩
abbrev main_v103 : Ref sig .tc := ⟨.hbm, 139, rfl⟩
abbrev main_v104 : Ref sig .tc := ⟨.hbm, 140, rfl⟩

abbrev nD : Nat := 1
abbrev τ : Topo := Topo.v7x

variable {F : FTy → Type} [FloatOps F]

class Facts₀ : Prop where
  bcast_S64x4000_S64x4000x1_0_1 : S64x4000.BroadcastsInDim S64x4000x1 (![0, 1] : Fin 2 → Fin S64x4000x1.rank)
  bcast_S64x4000x1_S64x4000x80_0_1_2 : S64x4000x1.BroadcastsInDim S64x4000x80 (![0, 1, 2] : Fin 3 → Fin S64x4000x80.rank)
  reducesTo_S64x4000x80_S_d0_1_2 : S64x4000x80.ReducesTo [0, 1, 2] S_
  h_S_ : 0 < S_.numel
  slices_S64x4000x80_S64x3999x80_0_1_0 : S64x4000x80.Slices ![0, 1, 0] S64x3999x80
  slices_S64x4000x80_S64x3999x80_0_0_0 : S64x4000x80.Slices ![0, 0, 0] S64x3999x80
  slices_S64x4000_S64x3999_0_1 : S64x4000.Slices ![0, 1] S64x3999
  slices_S64x4000_S64x3999_0_0 : S64x4000.Slices ![0, 0] S64x3999
  bcast_S64x3999_S64x3999x1_0_1 : S64x3999.BroadcastsInDim S64x3999x1 (![0, 1] : Fin 2 → Fin S64x3999x1.rank)
  bcast_S64x3999x1_S64x3999x80_0_1_2 : S64x3999x1.BroadcastsInDim S64x3999x80 (![0, 1, 2] : Fin 3 → Fin S64x3999x80.rank)
  reducesTo_S64x3999x80_S_d0_1_2 : S64x3999x80.ReducesTo [0, 1, 2] S_
  slices_S64x3999x80_S64x3998x80_0_1_0 : S64x3999x80.Slices ![0, 1, 0] S64x3998x80
  slices_S64x3999x80_S64x3998x80_0_0_0 : S64x3999x80.Slices ![0, 0, 0] S64x3998x80
  slices_S64x4000_S64x3998_0_2 : S64x4000.Slices ![0, 2] S64x3998
  slices_S64x4000_S64x3998_0_1 : S64x4000.Slices ![0, 1] S64x3998
  slices_S64x4000_S64x3998_0_0 : S64x4000.Slices ![0, 0] S64x3998
  bcast_S64x3998_S64x3998x1_0_1 : S64x3998.BroadcastsInDim S64x3998x1 (![0, 1] : Fin 2 → Fin S64x3998x1.rank)
  bcast_S64x3998x1_S64x3998x80_0_1_2 : S64x3998x1.BroadcastsInDim S64x3998x80 (![0, 1, 2] : Fin 3 → Fin S64x3998x80.rank)
  reducesTo_S64x3998x80_S_d0_1_2 : S64x3998x80.ReducesTo [0, 1, 2] S_
  bcast_S80_S1x1x80_2 : S80.BroadcastsInDim S1x1x80 (![2] : Fin 1 → Fin S1x1x80.rank)
  bcast_S1x1x80_S64x4000x80_0_1_2 : S1x1x80.BroadcastsInDim S64x4000x80 (![0, 1, 2] : Fin 3 → Fin S64x4000x80.rank)
  reducesTo_S80_S_d0 : S80.ReducesTo [0] S_
  reducesTo_S64x4000x80_S64x4000_d2 : S64x4000x80.ReducesTo [2] S64x4000
  bcast_S_S64x4000 : S_.BroadcastsInDim S64x4000 (![] : Fin 0 → Fin S64x4000.rank)
  reducesTo_S64x4000_S_d0_1 : S64x4000.ReducesTo [0, 1] S_

variable [Facts₀]

class Facts : Prop extends Facts₀ where

variable [Facts]
-- ==== Proof.MelLoss.lean ====
/-
  The masked mel-spectrogram loss as ONE function of its four argument arrays, on the extended reals.

  The arrays: a prediction P and a target Q of shape [64, 4000, 80] (utterance b, frame t, mel band d), a frame
  mask M of shape [64, 4000], band weights W of shape [80]. Eleven totals are taken over the whole batch, each the
  sum over the utterances b of a per-utterance quantity `part k b`:
    0  Σ |P − Q| · M                      1  Σ (|P − Q| · M) · W              2  (Σ_t M) · 80
    3  Σ |ΔP − ΔQ| · (M₊ · M)             4  (Σ_t M₊ · M) · 80
    5  Σ |Δ²P − Δ²Q| · ((M₊₊ · M₊) · M)   6  (Σ_t (M₊₊ · M₊) · M) · 80
    7  Σ ((P − Q) · M)²                   8  Σ (Q · M)²
    9  Σ_t |mean_d P − mean_d Q| · M     10  Σ_t M
  where Δ is the first difference along the frame axis (3999 frames), Δ² the second (3998 frames), M₊ the mask one
  frame later, and mean_d the sum over the 80 bands divided by 80. A per-utterance sum over frames and bands is taken
  over the frames first and the bands second. The loss is then the fixed combination `fin` of the eleven totals and
  of the mean band weight: five masked means (a total over max(count, 1)), a ratio of two root mean squares with the
  lower one held above a small constant, and dyadic weights 1, 1/2, 1/4, 1/2, 1, 1/2.

  Every float constant stays the extended real its f32 word denotes; nothing here evaluates one.
-/
import Idealize.ShloMosaic.PureOps.Ideal
import Idealize.ShloMosaic.Lib.ValueIdx

noncomputable section

open scoped BigOperators

namespace Cert.MelLoss

open Idealize.ShloMosaic Idealize.ShloMosaic.ValueIdx

/-- The shapes of the four arrays. -/
abbrev Sh3 : Shape := ⟨3, ![64, 4000, 80]⟩
abbrev Sh2 : Shape := ⟨2, ![64, 4000]⟩
abbrev Sh1 : Shape := ⟨1, ![80]⟩

/-- The constants, each the value of its f32 word: 0, 1, 1/2, 1/4, 80, and the floor of the lower root mean square. -/
abbrev zero : EReal := Ideal.ofBits .f32 0x00000000#32
abbrev one : EReal := Ideal.ofBits .f32 0x3F800000#32
abbrev half : EReal := Ideal.ofBits .f32 0x3F000000#32
abbrev quarter : EReal := Ideal.ofBits .f32 0x3E800000#32
abbrev eighty : EReal := Ideal.ofBits .f32 0x42A00000#32
abbrev floorEps : EReal := Ideal.ofBits .f32 0x322BCC77#32

/-- The absolute value on the extended reals. -/
abbrev absE (x : EReal) : EReal := max x (-x)

/-- Frame t + 1 and frame t of the 4000 frames, for t among the 3999 first differences. -/
abbrev up1 (t : Fin 3999) : Fin 4000 := ⟨t.val + 1, by omega⟩
abbrev lo1 (t : Fin 3999) : Fin 4000 := ⟨t.val, by omega⟩
/-- Difference t + 1 and difference t of the 3999 first differences, for t among the 3998 second differences. -/
abbrev up2 (t : Fin 3998) : Fin 3999 := ⟨t.val + 1, by omega⟩
abbrev lo2 (t : Fin 3998) : Fin 3999 := ⟨t.val, by omega⟩

/-! ## One utterance

  The data of one utterance: its prediction p and target q as functions of (frame, band), its mask mk as a function
  of the frame, and the band weights w. -/

section Row
variable (p q : Fin 4000 → Fin 80 → EReal) (mk : Fin 4000 → EReal) (w : Fin 80 → EReal)

/-- The first difference of a row along the frame axis: x(t + 1) − x(t). -/
def stp (x : Fin 4000 → Fin 80 → EReal) (t : Fin 3999) (d : Fin 80) : EReal := x (up1 t) d - x (lo1 t) d

/-- The second difference: the first difference of the first difference. -/
def stp2 (x : Fin 4000 → Fin 80 → EReal) (t : Fin 3998) (d : Fin 80) : EReal := stp x (up2 t) d - stp x (lo2 t) d

/-- The mask of a first difference: both of its frames unmasked. -/
def msk1 (t : Fin 3999) : EReal := mk (up1 t) * mk (lo1 t)

/-- The mask of a second difference: all three of its frames unmasked. -/
def msk2 (t : Fin 3998) : EReal := (mk (up1 (up2 t)) * mk (up1 (lo2 t))) * mk (lo1 (lo2 t))

/-- The mean over the 80 bands of a row at frame t. -/
def bandMean (x : Fin 4000 → Fin 80 → EReal) (t : Fin 4000) : EReal := Ideal.div (∑ d : Fin 80, x t d) eighty

/-- The eleven quantities of one utterance. -/
def rowPart : ℕ → EReal
  | 0 => ∑ d : Fin 80, ∑ t : Fin 4000, absE (p t d - q t d) * mk t
  | 1 => ∑ d : Fin 80, ∑ t : Fin 4000, (absE (p t d - q t d) * mk t) * w d
  | 2 => (∑ t : Fin 4000, mk t) * eighty
  | 3 => ∑ d : Fin 80, ∑ t : Fin 3999, absE (stp p t d - stp q t d) * msk1 mk t
  | 4 => (∑ t : Fin 3999, msk1 mk t) * eighty
  | 5 => ∑ d : Fin 80, ∑ t : Fin 3998, absE (stp2 p t d - stp2 q t d) * msk2 mk t
  | 6 => (∑ t : Fin 3998, msk2 mk t) * eighty
  | 7 => ∑ d : Fin 80, ∑ t : Fin 4000, ((p t d - q t d) * mk t) * ((p t d - q t d) * mk t)
  | 8 => ∑ d : Fin 80, ∑ t : Fin 4000, (q t d * mk t) * (q t d * mk t)
  | 9 => ∑ t : Fin 4000, absE (bandMean p t - bandMean q t) * mk t
  | 10 => ∑ t : Fin 4000, mk t
  | _ => 0

end Row

/-! ## One utterance as the blocks hold it

  A block of the prediction or the target is one utterance as an array [1, 4000, 80]; a block of the mask is a
  column [1, 4000, 1]; the weights come as a row [1, 1, 80]. -/

/-- The rows of a [1, 4000, 80] block. -/
abbrev rowOf (x : (⟨3, ![1, 4000, 80]⟩ : Shape).Idx → EReal) : Fin 4000 → Fin 80 → EReal := fun t d => x (ix3 0 t d)
/-- The entries of a [1, 4000, 1] column. -/
abbrev colOf (x : (⟨3, ![1, 4000, 1]⟩ : Shape).Idx → EReal) : Fin 4000 → EReal := fun t => x (ix3 0 t 0)
/-- The entries of a [1, 1, 80] row. -/
abbrev bandsOf (x : (⟨3, ![1, 1, 80]⟩ : Shape).Idx → EReal) : Fin 80 → EReal := fun d => x (ix3 0 0 d)

/-! ## The batch -/

section
variable (P Q : Sh3.Idx → EReal) (M : Sh2.Idx → EReal) (W : Sh1.Idx → EReal)

/-- Utterance b of the batch: its rows of P, Q and M, and the weights. -/
def part (k : ℕ) (b : Fin 64) : EReal :=
  rowPart (fun t d => P (ix3 b t d)) (fun t d => Q (ix3 b t d)) (fun t => M (ix2 b t)) (fun d => W (ix1 d)) k

/-- The per-utterance quantity of the utterance numbered s, zero past the batch. -/
def partN (k s : ℕ) : EReal := if h : s < 64 then part P Q M W k ⟨s, h⟩ else 0

/-- A running total: the per-utterance quantities of the utterances 0, …, n. -/
def upTo (k n : ℕ) : EReal := ∑ s ∈ Finset.range (n + 1), partN P Q M W k s

/-- The total over the whole batch. -/
def tot (k : ℕ) : EReal := ∑ b : Fin 64, part P Q M W k b

/-- The mean band weight: the sum of the 80 weights from zero, over 80. -/
def meanW : EReal := Ideal.div (zero + ∑ d : Fin 80, W (ix1 d)) eighty

end

/-- The loss as a function of eleven totals s and of the mean band weight w. -/
def fin (s : ℕ → EReal) (w : EReal) : EReal :=
  ((((one * Ideal.div (s 0) (max (s 2) one)
        + half * Ideal.div (s 3) (max (s 4) one))
       + quarter * Ideal.div (s 5) (max (s 6) one))
      + half * Ideal.div (Ideal.sqrt (Ideal.div (s 7) (max (s 2) one)))
                 (max (Ideal.sqrt (Ideal.div (s 8) (max (s 2) one))) floorEps))
     + one * Ideal.div (Ideal.div (s 1) (max (s 2) one)) w)
    + half * Ideal.div (s 9) (max (s 10) one)

/-- The loss of the four arrays. -/
def loss (P Q : Sh3.Idx → EReal) (M : Sh2.Idx → EReal) (W : Sh1.Idx → EReal) : EReal :=
  fin (tot P Q M W) (meanW W)

/-- The running total after the last utterance is the total. -/
theorem upTo_last (P Q : Sh3.Idx → EReal) (M : Sh2.Idx → EReal) (W : Sh1.Idx → EReal) (k : ℕ) :
    upTo P Q M W k 63 = tot P Q M W k := by
  unfold upTo tot
  refine (Fin.sum_univ_eq_sum_range (fun s => partN P Q M W k s) 64).symm.trans ?_
  exact Finset.sum_congr rfl fun b _ => by
    unfold partN
    rw [dif_pos b.isLt]

/-- The running total after the first utterance. -/
theorem upTo_zero (P Q : Sh3.Idx → EReal) (M : Sh2.Idx → EReal) (W : Sh1.Idx → EReal) (k : ℕ) :
    upTo P Q M W k 0 = part P Q M W k ⟨0, by omega⟩ := by
  unfold upTo partN
  rw [Finset.sum_range_one, dif_pos (by omega)]

/-- The running total after utterance n + 1 adds that utterance's quantity. -/
theorem upTo_succ (P Q : Sh3.Idx → EReal) (M : Sh2.Idx → EReal) (W : Sh1.Idx → EReal) (k n : ℕ) (h : n + 1 < 64) :
    upTo P Q M W k (n + 1) = upTo P Q M W k n + part P Q M W k ⟨n + 1, h⟩ := by
  unfold upTo
  rw [Finset.sum_range_succ _ (n + 1)]
  congr 1
  unfold partN
  rw [dif_pos h]

end Cert.MelLoss

end
-- ==== Proof.RowSumsPlain.lean ====
/- One utterance's plain sums, as the kernel body computes them from its blocks. -/
import proofs.«144318_j84593675862632_1_alg».proof.Proof.Gen.KernelIdeal.Skeleton
import proofs.«144318_j84593675862632_1_alg».proof.Proof.MelLoss
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.MelLoss.Row

open Idealize.ShloMosaic Idealize.ShloMosaic.ValueIdx Cert.KernelIdeal Cert.KernelIdeal.Gen Cert.MelLoss

/-! ## The reductions and shape casts of the body, each read at its coordinates -/

section Tools

/-- The sum over the frame axis of a [1, 4000, 80] block, at band d, is the sum over the 4000 frames. -/
theorem sumFrames_apply (X : FVec Ideal S1x4000x80 .f32) (h : S1x4000x80.Reduces [1] S1x80) (hφ : FKind.Formats .f32)
    (hacc : (0x00000000#32 : BitVec 32) = FKind.add.neutral .f32 hφ) (d : Fin 80) :
    multiReduction .add [1] S1x80 X 0x00000000#32 h hφ hacc (ix2 0 d) = ∑ t : Fin 4000, X (ix3 0 t d) := by
  refine (Ideal.multiReduction_add_single X _ h hφ hacc (ix2 0 d)).trans ?_
  refine Finset.sum_congr rfl fun t _ => congrArg X ?_
  funext a
  match a with
  | ⟨0, _⟩ => exact Fin.ext rfl
  | ⟨1, _⟩ => exact Fin.ext rfl
  | ⟨2, _⟩ => exact Fin.ext rfl

/-- The sum over the band axis of a [1, 1, 80] row is the sum over the 80 bands. -/
theorem sumBands_apply (Z : FVec Ideal S1x1x80 .f32) (h : S1x1x80.Reduces [2] S1x1) (hφ : FKind.Formats .f32)
    (hacc : (0x00000000#32 : BitVec 32) = FKind.add.neutral .f32 hφ) :
    multiReduction .add [2] S1x1 Z 0x00000000#32 h hφ hacc (ix2 0 0) = ∑ d : Fin 80, Z (ix3 0 0 d) := by
  refine (Ideal.multiReduction_add_single Z _ h hφ hacc (ix2 0 0)).trans ?_
  refine Finset.sum_congr rfl fun d _ => congrArg Z ?_
  funext a
  match a with
  | ⟨0, _⟩ => exact Fin.ext rfl
  | ⟨1, _⟩ => exact Fin.ext rfl
  | ⟨2, _⟩ => exact Fin.ext rfl

variable {α : Type}

/-- A [1, 80] row viewed as [1, 1, 80] keeps its bands. -/
theorem castRow_apply (Y : S1x80.Idx → α) (h : S1x80.ShapeCasts S1x1x80) (d : Fin 80) :
    shapeCast S1x1x80 Y h (ix3 0 0 d) = Y (ix2 0 d) :=
  shapeCast_apply Y h (ix3 0 0 d) (ix2 0 d) (by
    rw [Shape.rowMajor_val_two, Shape.rowMajor_val_three]
    show (0 : ℕ) * 80 + d.val = ((0 : ℕ) * 1 + 0) * 80 + d.val
    omega)

/-- A [1, 1] value viewed as [1, 1, 1] is the same value. -/
theorem castUp_apply (Y : S1x1.Idx → α) (h : S1x1.ShapeCasts S1x1x1) :
    shapeCast S1x1x1 Y h (ix3 0 0 0) = Y (ix2 0 0) :=
  shapeCast_apply Y h (ix3 0 0 0) (ix2 0 0) (by
    rw [Shape.rowMajor_val_two, Shape.rowMajor_val_three]
    rfl)

/-- A [1, 1, 1] value viewed as [1, 1] is the same value. -/
theorem castDown_apply (Y : S1x1x1.Idx → α) (h : S1x1x1.ShapeCasts S1x1) :
    shapeCast S1x1 Y h (ix2 0 0) = Y (ix3 0 0 0) :=
  shapeCast_apply Y h (ix2 0 0) (ix3 0 0 0) (by
    rw [Shape.rowMajor_val_two, Shape.rowMajor_val_three]
    rfl)

end Tools

section Chain

/-- The body's total of a [1, 4000, 80] block: summed over the frames, then over the bands, and carried through the
    unit-shape casts, it is the double sum with the bands outside. -/
theorem total_apply (X : FVec Ideal S1x4000x80 .f32) (h1 : S1x4000x80.Reduces [1] S1x80) (h2 : S1x1x80.Reduces [2] S1x1)
    (c1 : S1x80.ShapeCasts S1x1x80) (c2 : S1x1.ShapeCasts S1x1x1) (c3 : S1x1x1.ShapeCasts S1x1) (hφ : FKind.Formats .f32)
    (hacc : (0x00000000#32 : BitVec 32) = FKind.add.neutral .f32 hφ) :
    shapeCast S1x1 (shapeCast S1x1x1 (multiReduction .add [2] S1x1
        (shapeCast S1x1x80 (multiReduction .add [1] S1x80 X 0x00000000#32 h1 hφ hacc) c1) 0x00000000#32 h2 hφ hacc) c2) c3 (ix2 0 0)
      = ∑ d : Fin 80, ∑ t : Fin 4000, X (ix3 0 t d) := by
  refine (castDown_apply _ c3).trans ?_
  refine (castUp_apply _ c2).trans ?_
  refine (sumBands_apply _ h2 hφ hacc).trans ?_
  refine Finset.sum_congr rfl fun d _ => ?_
  refine (castRow_apply _ c1 d).trans ?_
  exact sumFrames_apply X h1 hφ hacc d

/-- The mask column, cast to its own shape and broadcast along the bands, reads the column's entry at the frame. -/
theorem maskBroadcast_apply (m : Vec Ideal S1x4000x1 .f32) (h : S1x4000x1.Broadcasts S1x4000x80) (t : Fin 4000) (d : Fin 80) :
    broadcastTo S1x4000x80 (k0_pay12 (F := Ideal) m) h (ix3 0 t d) = m (ix3 0 t 0) := by
  refine (broadcastTo_apply _ h (ix3 0 t d) (ix3 0 t 0) fun a => ?_).trans ?_
  · match a with
    | ⟨0, _⟩ => rfl
    | ⟨1, _⟩ => rfl
    | ⟨2, _⟩ => rfl
  · unfold k0_pay12
    exact congrFun (shapeCast_self m _) _

/-- The weights row, cast to its own shape and broadcast along the frames, reads the row's entry at the band. -/
theorem weightBroadcast_apply (w : Vec Ideal S1x1x80 .f32) (c : S1x1x80.ShapeCasts S1x1x80) (h : S1x1x80.Broadcasts S1x4000x80)
    (t : Fin 4000) (d : Fin 80) :
    broadcastTo S1x4000x80 (shapeCast S1x1x80 w c) h (ix3 0 t d) = w (ix3 0 0 d) := by
  refine (broadcastTo_apply _ h (ix3 0 t d) (ix3 0 0 d) fun a => ?_).trans ?_
  · match a with
    | ⟨0, _⟩ => rfl
    | ⟨1, _⟩ => rfl
    | ⟨2, _⟩ => rfl
  · exact congrFun (shapeCast_self w c) _

end Chain

section Column

/-- The sum over the frame axis of a [1, 4000, 1] column is the sum over the 4000 frames. -/
theorem sumColumn_apply (m : FVec Ideal S1x4000x1 .f32) (h : S1x4000x1.Reduces [1] S1x1) (hφ : FKind.Formats .f32)
    (hacc : (0x00000000#32 : BitVec 32) = FKind.add.neutral .f32 hφ) :
    multiReduction .add [1] S1x1 m 0x00000000#32 h hφ hacc (ix2 0 0) = ∑ t : Fin 4000, m (ix3 0 t 0) := by
  refine (Ideal.multiReduction_add_single m _ h hφ hacc (ix2 0 0)).trans ?_
  refine Finset.sum_congr rfl fun t _ => congrArg m ?_
  funext a
  match a with
  | ⟨0, _⟩ => exact Fin.ext rfl
  | ⟨1, _⟩ => exact Fin.ext rfl
  | ⟨2, _⟩ => exact Fin.ext rfl

/-- The sum over the last axis of a [1, 1, 1] value is its one term. -/
theorem sumUnit_apply (Z : FVec Ideal S1x1x1 .f32) (h : S1x1x1.Reduces [2] S1x1) (hφ : FKind.Formats .f32)
    (hacc : (0x00000000#32 : BitVec 32) = FKind.add.neutral .f32 hφ) :
    multiReduction .add [2] S1x1 Z 0x00000000#32 h hφ hacc (ix2 0 0) = Z (ix3 0 0 0) := by
  refine (Ideal.multiReduction_add_single Z _ h hφ hacc (ix2 0 0)).trans ?_
  show ∑ k : Fin 1, Z (h.lift (ix2 0 0) k) = _
  rw [Fin.sum_univ_one]
  refine congrArg Z ?_
  funext a
  match a with
  | ⟨0, _⟩ => exact Fin.ext rfl
  | ⟨1, _⟩ => exact Fin.ext rfl
  | ⟨2, _⟩ => exact Fin.ext rfl

end Column

/-- The absolute difference of two blocks at an index. -/
theorem absDiff_apply (a b : Vec Ideal S1x4000x80 .f32) (i : S1x4000x80.Idx) :
    k0_pay13 (F := Ideal) a b i = absE (a i - b i) := rfl

variable (x0 x1 : Vec Ideal S1x4000x80 .f32) (x2 : Vec Ideal S1x4000x1 .f32) (x3 : Vec Ideal S1x1x80 .f32)

theorem val0 : k0_pay14 (F := Ideal) x0 x1 x2 (ix2 0 0) = rowPart (rowOf x0) (rowOf x1) (colOf x2) (bandsOf x3) 0 := by
  unfold k0_pay14
  refine (total_apply _ _ _ _ _ _ _ _).trans ?_
  show _ = ∑ d : Fin 80, ∑ t : Fin 4000, absE (x0 (ix3 0 t d) - x1 (ix3 0 t d)) * x2 (ix3 0 t 0)
  refine Finset.sum_congr rfl fun d _ => Finset.sum_congr rfl fun t _ => ?_
  exact congrArg₂ (· * ·) (absDiff_apply x0 x1 _) (maskBroadcast_apply x2 _ t d)

theorem val1 : k0_pay15 (F := Ideal) x0 x1 x2 x3 (ix2 0 0) = rowPart (rowOf x0) (rowOf x1) (colOf x2) (bandsOf x3) 1 := by
  unfold k0_pay15
  refine (total_apply _ _ _ _ _ _ _ _).trans ?_
  show _ = ∑ d : Fin 80, ∑ t : Fin 4000, (absE (x0 (ix3 0 t d) - x1 (ix3 0 t d)) * x2 (ix3 0 t 0)) * x3 (ix3 0 0 d)
  refine Finset.sum_congr rfl fun d _ => Finset.sum_congr rfl fun t _ => ?_
  exact congrArg₂ (· * ·) (congrArg₂ (· * ·) (absDiff_apply x0 x1 _) (maskBroadcast_apply x2 _ t d))
    (weightBroadcast_apply x3 _ _ t d)

theorem val2 : k0_pay16 (F := Ideal) x2 (ix2 0 0) = rowPart (rowOf x0) (rowOf x1) (colOf x2) (bandsOf x3) 2 := by
  unfold k0_pay16
  show _ = (∑ t : Fin 4000, x2 (ix3 0 t 0)) * eighty
  refine congrArg₂ (· * ·) ?_ rfl
  refine (castDown_apply _ _).trans ?_
  refine (castUp_apply _ _).trans ?_
  refine (sumUnit_apply _ _ _ _).trans ?_
  refine (castUp_apply _ _).trans ?_
  refine (sumColumn_apply _ _ _ _).trans ?_
  refine Finset.sum_congr rfl fun t _ => ?_
  unfold k0_pay12
  exact congrFun (shapeCast_self x2 _) _

theorem val7 : k0_pay26 (F := Ideal) (k0_pay12 x2) (k0_pay25 x0 x1) (ix2 0 0) = rowPart (rowOf x0) (rowOf x1) (colOf x2) (bandsOf x3) 7 := by
  unfold k0_pay26
  refine (total_apply _ _ _ _ _ _ _ _).trans ?_
  show _ = ∑ d : Fin 80, ∑ t : Fin 4000,
    ((x0 (ix3 0 t d) - x1 (ix3 0 t d)) * x2 (ix3 0 t 0)) * ((x0 (ix3 0 t d) - x1 (ix3 0 t d)) * x2 (ix3 0 t 0))
  refine Finset.sum_congr rfl fun d _ => Finset.sum_congr rfl fun t _ => ?_
  have e : mulf (k0_pay25 (F := Ideal) x0 x1) (broadcastTo S1x4000x80 (k0_pay12 x2) broadcasts_S1x4000x1_S1x4000x80) (ix3 0 t d)
      = (x0 (ix3 0 t d) - x1 (ix3 0 t d)) * x2 (ix3 0 t 0) :=
    congrArg₂ (· * ·) rfl (maskBroadcast_apply x2 _ t d)
  exact congrArg₂ (· * ·) e e

theorem val8 : k0_pay27 (F := Ideal) x1 (k0_pay12 x2) (ix2 0 0) = rowPart (rowOf x0) (rowOf x1) (colOf x2) (bandsOf x3) 8 := by
  unfold k0_pay27
  refine (total_apply _ _ _ _ _ _ _ _).trans ?_
  show _ = ∑ d : Fin 80, ∑ t : Fin 4000, (x1 (ix3 0 t d) * x2 (ix3 0 t 0)) * (x1 (ix3 0 t d) * x2 (ix3 0 t 0))
  refine Finset.sum_congr rfl fun d _ => Finset.sum_congr rfl fun t _ => ?_
  have e : mulf x1 (broadcastTo S1x4000x80 (k0_pay12 (F := Ideal) x2) broadcasts_S1x4000x1_S1x4000x80) (ix3 0 t d)
      = x1 (ix3 0 t d) * x2 (ix3 0 t 0) :=
    congrArg₂ (· * ·) rfl (maskBroadcast_apply x2 _ t d)
  exact congrArg₂ (· * ·) e e

end Cert.MelLoss.Row

end
-- ==== Proof.RowSumsDiff.lean ====
/- One utterance's sums over first and second differences, as the kernel body computes them from its blocks. -/
import proofs.«144318_j84593675862632_1_alg».proof.Proof.Gen.KernelIdeal.Skeleton
import proofs.«144318_j84593675862632_1_alg».proof.Proof.MelLoss
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.MelLoss.Row

open Idealize.ShloMosaic Idealize.ShloMosaic.ValueIdx Cert.KernelIdeal Cert.KernelIdeal.Gen Cert.MelLoss

/-! ## Reductions and layouts of a [1, m, n] array read at indices written by coordinates

  Generic in the extents m and n. -/

/-- Over entry (u, d) of a [1, n] row, the index a reduction over the middle axis of [1, m, n] inserts t into is
    (u, t, d). -/
private theorem lift_mid {m n : ℕ} (h : (⟨3, ![1, m, n]⟩ : Shape).Reduces [1] ⟨2, ![1, n]⟩) (u : Fin 1) (d : Fin n) (t : Fin m) :
    h.lift (ix2 u d) t = ix3 u t d :=
  funext fun c => Fin.ext (match c with | ⟨0, _⟩ => rfl | ⟨1, _⟩ => rfl | ⟨2, _⟩ => rfl)

/-- Over the one entry of [1, 1], the index a reduction over the last axis of [1, 1, n] inserts d into is (u, v, d). -/
private theorem lift_last {n : ℕ} (h : (⟨3, ![1, 1, n]⟩ : Shape).Reduces [2] ⟨2, ![1, 1]⟩) (u v : Fin 1) (d : Fin n) :
    h.lift (ix2 u v) d = ix3 u v d :=
  funext fun c => Fin.ext (match c with | ⟨0, _⟩ => rfl | ⟨1, _⟩ => rfl | ⟨2, _⟩ => rfl)

/-- A float sum of [1, m, n] over its middle axis, at (u, d), is the sum over t of the entries (u, t, d). -/
private theorem sum_mid {m n : ℕ} (src : FVec Ideal ⟨3, ![1, m, n]⟩ .f32)
    (h : (⟨3, ![1, m, n]⟩ : Shape).Reduces [1] ⟨2, ![1, n]⟩)
    (hφ : FKind.Formats .f32) (hacc : (0x00000000#32 : BitVec 32) = FKind.add.neutral .f32 hφ) (u : Fin 1) (d : Fin n) :
    multiReduction .add [1] ⟨2, ![1, n]⟩ src 0x00000000#32 h hφ hacc (ix2 u d) = ∑ t : Fin m, src (ix3 u t d) :=
  (Ideal.multiReduction_add_single src _ h hφ hacc (ix2 u d)).trans
    (Finset.sum_congr rfl fun t _ => congrArg src (lift_mid h u d t))

/-- A float sum of [1, 1, n] over its last axis, at (u, v), is the sum over d of the entries (u, v, d). -/
private theorem sum_last {n : ℕ} (src : FVec Ideal ⟨3, ![1, 1, n]⟩ .f32)
    (h : (⟨3, ![1, 1, n]⟩ : Shape).Reduces [2] ⟨2, ![1, 1]⟩)
    (hφ : FKind.Formats .f32) (hacc : (0x00000000#32 : BitVec 32) = FKind.add.neutral .f32 hφ) (u v : Fin 1) :
    multiReduction .add [2] ⟨2, ![1, 1]⟩ src 0x00000000#32 h hφ hacc (ix2 u v) = ∑ d : Fin n, src (ix3 u v d) :=
  (Ideal.multiReduction_add_single src _ h hφ hacc (ix2 u v)).trans
    (Finset.sum_congr rfl fun d _ => congrArg src (lift_last h u v d))

/-- The sum of a [1, m, n] array taken over the middle axis first and the last axis second, as a reduction to [1, n],
    a view of that row as [1, 1, n], a reduction to [1, 1], and a view of the result as [1, 1, 1] and back: at its one
    entry, the double sum over d and t of the entries (0, t, d). -/
private theorem sum_mid_last {m n : ℕ} (src : FVec Ideal ⟨3, ![1, m, n]⟩ .f32)
    (hr1 : (⟨3, ![1, m, n]⟩ : Shape).Reduces [1] ⟨2, ![1, n]⟩)
    (hc1 : (⟨2, ![1, n]⟩ : Shape).ShapeCasts ⟨3, ![1, 1, n]⟩)
    (hr2 : (⟨3, ![1, 1, n]⟩ : Shape).Reduces [2] ⟨2, ![1, 1]⟩)
    (hc2 : (⟨2, ![1, 1]⟩ : Shape).ShapeCasts ⟨3, ![1, 1, 1]⟩)
    (hc3 : (⟨3, ![1, 1, 1]⟩ : Shape).ShapeCasts ⟨2, ![1, 1]⟩)
    (hφ : FKind.Formats .f32) (hacc : (0x00000000#32 : BitVec 32) = FKind.add.neutral .f32 hφ) :
    shapeCast ⟨2, ![1, 1]⟩ (shapeCast ⟨3, ![1, 1, 1]⟩
        (multiReduction .add [2] ⟨2, ![1, 1]⟩
          (shapeCast ⟨3, ![1, 1, n]⟩ (multiReduction .add [1] ⟨2, ![1, n]⟩ src 0x00000000#32 hr1 hφ hacc) hc1)
          0x00000000#32 hr2 hφ hacc) hc2) hc3 (ix2 0 0)
      = ∑ d : Fin n, ∑ t : Fin m, src (ix3 0 t d) := by
  rw [shapeCast_shapeCast]
  refine (sum_last _ hr2 hφ hacc 0 0).trans (Finset.sum_congr rfl fun d _ => ?_)
  exact (shapeCast_ab_1ab_apply _ hc1 0 0 d).trans (sum_mid src hr1 hφ hacc 0 d)

/-- A column [1, m, 1] broadcast to [1, m, n] reads, at (0, t, d), the column at (0, t, 0). -/
private theorem bcast_col3 {α : Type} {m n : ℕ} (v : (⟨3, ![1, m, 1]⟩ : Shape).Idx → α)
    (h : (⟨3, ![1, m, 1]⟩ : Shape).Broadcasts ⟨3, ![1, m, n]⟩) (t : Fin m) (d : Fin n) :
    broadcastTo ⟨3, ![1, m, n]⟩ v h (ix3 0 t d) = v (ix3 0 t 0) := by
  refine broadcastTo_apply v h (ix3 0 t d) (ix3 0 t 0) fun ax => ?_
  match ax with
  | ⟨0, _⟩ => rfl
  | ⟨1, _⟩ =>
    show t.val = if m = 1 then 0 else t.val
    split
    · have := t.isLt; omega
    · rfl
  | ⟨2, _⟩ => rfl

/-! ## The entries of the difference and mask-product arrays -/

/-- The mask column passes through its cast to the same shape unchanged. -/
private theorem pay12_eq (x : Vec Ideal S1x4000x1 .f32) : k0_pay12 (F := Ideal) x = x := shapeCast_self x _

/-- The first difference of the prediction block at (0, t, d): frame t + 1 minus frame t. -/
private theorem pay17_apply (x : Vec Ideal S1x4000x80 .f32) (t : Fin 3999) (d : Fin 80) :
    k0_pay17 (F := Ideal) x (ix3 0 t d) = stp (rowOf x) t d := by
  unfold k0_pay17 stp
  exact congrArg₂ (· - ·)
    (slice3_axis1_apply 1 x _ 0 t d (up1 t) (Nat.add_comm _ _))
    (slice3_axis1_apply 0 x _ 0 t d (lo1 t) (Nat.zero_add _).symm)

/-- The first difference of the target block at (0, t, d). -/
private theorem pay18_apply (x : Vec Ideal S1x4000x80 .f32) (t : Fin 3999) (d : Fin 80) :
    k0_pay18 (F := Ideal) x (ix3 0 t d) = stp (rowOf x) t d := by
  unfold k0_pay18 stp
  exact congrArg₂ (· - ·)
    (slice3_axis1_apply 1 x _ 0 t d (up1 t) (Nat.add_comm _ _))
    (slice3_axis1_apply 0 x _ 0 t d (lo1 t) (Nat.zero_add _).symm)

/-- The mask of first difference t: the product of the masks of frames t + 1 and t. -/
private theorem pay19_apply (v : FVec Ideal S1x4000x1 .f32) (t : Fin 3999) :
    k0_pay19 (F := Ideal) v (ix3 0 t 0) = msk1 (colOf v) t := by
  unfold k0_pay19 msk1
  exact congrArg₂ (· * ·)
    (slice3_axis1_apply 1 v _ 0 t 0 (up1 t) (Nat.add_comm _ _))
    (slice3_axis1_apply 0 v _ 0 t 0 (lo1 t) (Nat.zero_add _).symm)

/-- The mask of second difference t: the product of the masks of frames t + 2, t + 1 and t. -/
private theorem pay22_apply (v : FVec Ideal S1x4000x1 .f32) (t : Fin 3998) :
    k0_pay22 (F := Ideal) v (ix3 0 t 0) = msk2 (colOf v) t := by
  unfold k0_pay22 msk2
  exact congrArg₂ (· * ·)
    (congrArg₂ (· * ·)
      (slice3_axis1_apply 2 v _ 0 t 0 (up1 (up2 t)) (by show t.val + 1 + 1 = 2 + t.val; omega))
      (slice3_axis1_apply 1 v _ 0 t 0 (up1 (lo2 t)) (Nat.add_comm _ _)))
    (slice3_axis1_apply 0 v _ 0 t 0 (lo1 (lo2 t)) (Nat.zero_add _).symm)

/-- A first-difference array cut at offset 1 and at offset 0, read at (0, t, d): differences t + 1 and t. -/
private theorem slice_up2 (y : FVec Ideal S1x3999x80 .f32) (h : S1x3999x80.Slices ![0, 1, 0] S1x3998x80) (t : Fin 3998) (d : Fin 80) :
    extractStridedSlice S1x3998x80 ![0, 1, 0] y h (ix3 0 t d) = y (ix3 0 (up2 t) d) :=
  slice3_axis1_apply 1 y h 0 t d (up2 t) (Nat.add_comm _ _)
private theorem slice_lo2 (y : FVec Ideal S1x3999x80 .f32) (h : S1x3999x80.Slices ![0, 0, 0] S1x3998x80) (t : Fin 3998) (d : Fin 80) :
    extractStridedSlice S1x3998x80 ![0, 0, 0] y h (ix3 0 t d) = y (ix3 0 (lo2 t) d) :=
  slice3_axis1_apply 0 y h 0 t d (lo2 t) (Nat.zero_add _).symm

/-- The second difference from a first-difference array y whose entries are the first differences of x: the cut of y
    at offset 1 minus the cut at offset 0, at (0, t, d). -/
private theorem diff2_apply (y : FVec Ideal S1x3999x80 .f32) (x : Vec Ideal S1x4000x80 .f32)
    (hy : ∀ t d, y (ix3 0 t d) = stp (rowOf x) t d) (t : Fin 3998) (d : Fin 80) :
    subf (extractStridedSlice S1x3998x80 ![0, 1, 0] y slices_S1x3999x80_o0_1_0_S1x3998x80)
        (extractStridedSlice S1x3998x80 ![0, 0, 0] y slices_S1x3999x80_o0_0_0_S1x3998x80) (ix3 0 t d)
      = stp2 (rowOf x) t d := by
  unfold stp2
  exact congrArg₂ (· - ·) ((slice_up2 y _ t d).trans (hy _ _)) ((slice_lo2 y _ t d).trans (hy _ _))

/-! ## The four quantities -/

variable (x0 x1 : Vec Ideal S1x4000x80 .f32) (x2 : Vec Ideal S1x4000x1 .f32) (x3 : Vec Ideal S1x1x80 .f32)

theorem val3 : k0_pay20 (F := Ideal) x1 (k0_pay12 x2) (k0_pay17 x0) (ix2 0 0) = rowPart (rowOf x0) (rowOf x1) (colOf x2) (bandsOf x3) 3 := by
  unfold k0_pay20
  refine (sum_mid_last (m := 3999) (n := 80) _ _ _ _ _ _ _ _).trans ?_
  show _ = ∑ d : Fin 80, ∑ t : Fin 3999, absE (stp (rowOf x0) t d - stp (rowOf x1) t d) * msk1 (colOf x2) t
  refine Finset.sum_congr rfl fun d _ => Finset.sum_congr rfl fun t _ => ?_
  show max (k0_pay17 x0 (ix3 0 t d) - k0_pay18 x1 (ix3 0 t d)) (-(k0_pay17 x0 (ix3 0 t d) - k0_pay18 x1 (ix3 0 t d)))
      * broadcastTo S1x3999x80 (k0_pay19 (k0_pay12 x2)) broadcasts_S1x3999x1_S1x3999x80 (ix3 0 t d) = _
  rw [pay17_apply, pay18_apply, bcast_col3, pay19_apply, pay12_eq]

theorem val4 : k0_pay21 (F := Ideal) (k0_pay12 x2) (ix2 0 0) = rowPart (rowOf x0) (rowOf x1) (colOf x2) (bandsOf x3) 4 := by
  unfold k0_pay21
  show _ * eighty = (∑ t : Fin 3999, msk1 (colOf x2) t) * eighty
  refine congrArg (· * eighty) ?_
  refine (sum_mid_last (m := 3999) (n := 1) _ _ _ _ _ _ _ _).trans ?_
  rw [Fin.sum_univ_one]
  exact Finset.sum_congr rfl fun t _ => by rw [pay19_apply, pay12_eq]

theorem val5 : k0_pay23 (F := Ideal) x1 (k0_pay12 x2) (k0_pay17 x0) (ix2 0 0) = rowPart (rowOf x0) (rowOf x1) (colOf x2) (bandsOf x3) 5 := by
  unfold k0_pay23
  refine (sum_mid_last (m := 3998) (n := 80) _ _ _ _ _ _ _ _).trans ?_
  show _ = ∑ d : Fin 80, ∑ t : Fin 3998, absE (stp2 (rowOf x0) t d - stp2 (rowOf x1) t d) * msk2 (colOf x2) t
  refine Finset.sum_congr rfl fun d _ => Finset.sum_congr rfl fun t _ => ?_
  have hp := diff2_apply (k0_pay17 x0) x0 (pay17_apply x0) t d
  have hq := diff2_apply (k0_pay18 x1) x1 (pay18_apply x1) t d
  have hm : broadcastTo S1x3998x80 (k0_pay22 (k0_pay12 x2)) broadcasts_S1x3998x1_S1x3998x80 (ix3 0 t d)
      = msk2 (colOf x2) t := by
    rw [bcast_col3, pay22_apply, pay12_eq]
  exact congrArg₂ (· * ·) (congrArg absE (congrArg₂ (· - ·) hp hq)) hm

theorem val6 : k0_pay24 (F := Ideal) (k0_pay12 x2) (ix2 0 0) = rowPart (rowOf x0) (rowOf x1) (colOf x2) (bandsOf x3) 6 := by
  unfold k0_pay24
  show _ * eighty = (∑ t : Fin 3998, msk2 (colOf x2) t) * eighty
  refine congrArg (· * eighty) ?_
  refine (sum_mid_last (m := 3998) (n := 1) _ _ _ _ _ _ _ _).trans ?_
  rw [Fin.sum_univ_one]
  exact Finset.sum_congr rfl fun t _ => by rw [pay22_apply, pay12_eq]

end Cert.MelLoss.Row

end
-- ==== Proof.RowSumsClose.lean ====
/- One utterance's band-mean sums, the accumulation step, and the closing combination, as the kernel body computes them. -/
import proofs.«144318_j84593675862632_1_alg».proof.Proof.Gen.KernelIdeal.Skeleton
import proofs.«144318_j84593675862632_1_alg».proof.Proof.MelLoss
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.MelLoss.Row

open Idealize.ShloMosaic Idealize.ShloMosaic.ValueIdx Cert.KernelIdeal Cert.KernelIdeal.Gen Cert.MelLoss

/-! ## Reading the layout operations at an index

  A reduction over one axis reads, at a reduced index, the sum over that axis of the source at the index with the
  coordinate put back; at the literal shapes here that index is the one with the coordinates written out. A shape
  cast that only adds or drops unit axes keeps the one row-major position. -/

/-- Band d put back into (0, t): the index (0, t, d). -/
private theorem lift_band (h : S1x4000x80.Reduces [2] S1x4000) (t : Fin 4000) (d : Fin 80) :
    h.lift (ix2 0 t) d = ix3 0 t d := by
  funext a
  match a with
  | ⟨0, _⟩ => exact Fin.ext rfl
  | ⟨1, _⟩ => exact Fin.ext rfl
  | ⟨2, _⟩ => exact Fin.ext rfl

/-- Frame t put back into (0): the index (0, t). -/
private theorem lift_frame (h : S1x4000.Reduces [1] S1) (t : Fin 4000) :
    h.lift (ix1 0) t = ix2 0 t := by
  funext a
  match a with
  | ⟨0, _⟩ => exact Fin.ext rfl
  | ⟨1, _⟩ => exact Fin.ext rfl

/-- The cast of a [1] vector to [1, 1] reads its one entry. -/
private theorem cast11_apply {α : Type} (v : S1.Idx → α) :
    shapeCast S1x1 v shapeCasts_S1_S1x1 (ix2 0 0) = v (ix1 0) :=
  shapeCast_apply v shapeCasts_S1_S1x1 (ix2 0 0) (ix1 0) (by
    rw [Shape.rowMajor_val_one, Shape.rowMajor_val_two]; rfl)

/-- The mask column [1, 4000, 1], cast to itself and then to [1, 4000], reads at (0, t) the column's entry t. -/
private theorem col_apply (x2 : Vec Ideal S1x4000x1 .f32) (t : Fin 4000) :
    k0_pay28 (F := Ideal) (k0_pay12 x2) (ix2 0 t) = x2 (ix3 0 t 0) := by
  have e : k0_pay12 (F := Ideal) x2 = x2 := shapeCast_self x2 shapeCasts_S1x4000x1_S1x4000x1
  rw [e]
  exact shapeCast_apply x2 shapeCasts_S1x4000x1_S1x4000 (ix2 0 t) (ix3 0 t 0) (by
    rw [Shape.rowMajor_val_three, Shape.rowMajor_val_two]
    show (0 * 4000 + t.val) * 1 + 0 = 0 * 4000 + t.val
    omega)

/-- The sum over the band axis of a [1, 4000, 80] block, divided by the constant 80, is at (0, t) the band mean of
    row t. -/
private theorem bandMean_apply (x : Vec Ideal S1x4000x80 .f32) (t : Fin 4000) :
    (divf (multiReduction .add [2] S1x4000 x 0x00000000#32 reduces_S1x4000x80_S1x4000 (.inl rfl) rfl)
        (broadcast S1x4000 (Scalar.ofBits .f32 0x42A00000#32)) : FVec Ideal S1x4000 .f32) (ix2 0 t)
      = bandMean (rowOf x) t := by
  unfold bandMean
  refine congrArg (fun u => Ideal.div u eighty) ?_
  refine (Ideal.multiReduction_add_single x _ reduces_S1x4000x80_S1x4000 _ _ (ix2 0 t)).trans ?_
  exact Finset.sum_congr rfl fun d _ => congrArg x (lift_band _ t d)

/-- The product of an absolute difference with a third vector, at an index. -/
private theorem term_apply (A B C : FVec Ideal S1x4000 .f32) (i : S1x4000.Idx) :
    mulf (absf (subf A B)) C i = absE (A i - B i) * C i := rfl

variable (x0 x1 : Vec Ideal S1x4000x80 .f32) (x2 : Vec Ideal S1x4000x1 .f32) (x3 : Vec Ideal S1x1x80 .f32)

theorem val9 : k0_pay29 (F := Ideal) x0 x1 (k0_pay12 x2) (ix2 0 0) = rowPart (rowOf x0) (rowOf x1) (colOf x2) (bandsOf x3) 9 := by
  unfold k0_pay29
  refine (cast11_apply _).trans ?_
  refine (Ideal.multiReduction_add_single _ _ reduces_S1x4000_S1 _ _ (ix1 0)).trans ?_
  show _ = ∑ t : Fin 4000, absE (bandMean (rowOf x0) t - bandMean (rowOf x1) t) * x2 (ix3 0 t 0)
  refine Finset.sum_congr rfl fun (t : Fin 4000) _ => ?_
  refine (congrArg _ (lift_frame reduces_S1x4000_S1 t)).trans ?_
  refine (term_apply _ _ _ (ix2 0 t)).trans ?_
  rw [bandMean_apply x0 t, bandMean_apply x1 t, col_apply x2 t]

theorem val10 : k0_pay30 (F := Ideal) (k0_pay12 x2) (ix2 0 0) = rowPart (rowOf x0) (rowOf x1) (colOf x2) (bandsOf x3) 10 := by
  unfold k0_pay30
  refine (cast11_apply _).trans ?_
  refine (Ideal.multiReduction_add_single _ _ reduces_S1x4000_S1 _ _ (ix1 0)).trans ?_
  show _ = ∑ t : Fin 4000, x2 (ix3 0 t 0)
  refine Finset.sum_congr rfl fun (t : Fin 4000) _ => ?_
  exact (congrArg _ (lift_frame reduces_S1x4000_S1 t)).trans (col_apply x2 t)

/-- The accumulation step: the old entry plus the new quantity (slot 0; the other ten slots likewise). -/
theorem add0 (v a : Vec Ideal S1x1 .f32) : k0_pay31 (F := Ideal) v a (ix2 0 0) = a (ix2 0 0) + v (ix2 0 0) := by
  unfold k0_pay31
  exact congrFun (shapeCast_self _ shapeCasts_S1x1_S1x1) (ix2 0 0)
theorem add1 (v a : Vec Ideal S1x1 .f32) : k0_pay32 (F := Ideal) v a (ix2 0 0) = a (ix2 0 0) + v (ix2 0 0) := by
  unfold k0_pay32
  exact congrFun (shapeCast_self _ shapeCasts_S1x1_S1x1) (ix2 0 0)
theorem add2 (v a : Vec Ideal S1x1 .f32) : k0_pay33 (F := Ideal) v a (ix2 0 0) = a (ix2 0 0) + v (ix2 0 0) := by
  unfold k0_pay33
  exact congrFun (shapeCast_self _ shapeCasts_S1x1_S1x1) (ix2 0 0)
theorem add3 (v a : Vec Ideal S1x1 .f32) : k0_pay34 (F := Ideal) v a (ix2 0 0) = a (ix2 0 0) + v (ix2 0 0) := by
  unfold k0_pay34
  exact congrFun (shapeCast_self _ shapeCasts_S1x1_S1x1) (ix2 0 0)
theorem add4 (v a : Vec Ideal S1x1 .f32) : k0_pay35 (F := Ideal) v a (ix2 0 0) = a (ix2 0 0) + v (ix2 0 0) := by
  unfold k0_pay35
  exact congrFun (shapeCast_self _ shapeCasts_S1x1_S1x1) (ix2 0 0)
theorem add5 (v a : Vec Ideal S1x1 .f32) : k0_pay36 (F := Ideal) v a (ix2 0 0) = a (ix2 0 0) + v (ix2 0 0) := by
  unfold k0_pay36
  exact congrFun (shapeCast_self _ shapeCasts_S1x1_S1x1) (ix2 0 0)
theorem add6 (v a : Vec Ideal S1x1 .f32) : k0_pay37 (F := Ideal) v a (ix2 0 0) = a (ix2 0 0) + v (ix2 0 0) := by
  unfold k0_pay37
  exact congrFun (shapeCast_self _ shapeCasts_S1x1_S1x1) (ix2 0 0)
theorem add7 (v a : Vec Ideal S1x1 .f32) : k0_pay38 (F := Ideal) v a (ix2 0 0) = a (ix2 0 0) + v (ix2 0 0) := by
  unfold k0_pay38
  exact congrFun (shapeCast_self _ shapeCasts_S1x1_S1x1) (ix2 0 0)
theorem add8 (v a : Vec Ideal S1x1 .f32) : k0_pay1 (F := Ideal) v a (ix2 0 0) = a (ix2 0 0) + v (ix2 0 0) := by
  unfold k0_pay1
  exact congrFun (shapeCast_self _ shapeCasts_S1x1_S1x1) (ix2 0 0)
theorem add9 (v a : Vec Ideal S1x1 .f32) : k0_pay2 (F := Ideal) v a (ix2 0 0) = a (ix2 0 0) + v (ix2 0 0) := by
  unfold k0_pay2
  exact congrFun (shapeCast_self _ shapeCasts_S1x1_S1x1) (ix2 0 0)
theorem add10 (v a : Vec Ideal S1x1 .f32) : k0_pay3 (F := Ideal) v a (ix2 0 0) = a (ix2 0 0) + v (ix2 0 0) := by
  unfold k0_pay3
  exact congrFun (shapeCast_self _ shapeCasts_S1x1_S1x1) (ix2 0 0)

/-- The closing combination: from the eleven accumulated entries a0 … a10 (each a [1, 1] vector) and the mean band
    weight wv, the stored value is `fin` of the entries and the weight. -/
theorem closing (a0 a1 a2 a3 a4 a5 a6 a7 a8 a9 a10 wv : Vec Ideal S1x1 .f32) (s : ℕ → EReal)
    (h0 : s 0 = a0 (ix2 0 0)) (h1 : s 1 = a1 (ix2 0 0)) (h2 : s 2 = a2 (ix2 0 0)) (h3 : s 3 = a3 (ix2 0 0))
    (h4 : s 4 = a4 (ix2 0 0)) (h5 : s 5 = a5 (ix2 0 0)) (h6 : s 6 = a6 (ix2 0 0)) (h7 : s 7 = a7 (ix2 0 0))
    (h8 : s 8 = a8 (ix2 0 0)) (h9 : s 9 = a9 (ix2 0 0)) (h10 : s 10 = a10 (ix2 0 0)) :
    k0_pay4 (F := Ideal) a1 a2 a9 a10 (k0_pay5 wv) (k0_pay6 a0 a2) (k0_pay7 a3 a4) (k0_pay8 a5 a6) (k0_pay9 a2 a7)
        (k0_pay10 a2 a8) (Scalar.ofBits .f32 0x322BCC77#32) (ix2 0 0)
      = fin s (wv (ix2 0 0)) := by
  have e5 : k0_pay5 (F := Ideal) wv = wv := shapeCast_self wv shapeCasts_S1x1_S1x1
  rw [e5]
  unfold fin
  rw [h0, h1, h2, h3, h4, h5, h6, h7, h8, h9, h10]
  rfl

end Cert.MelLoss.Row

end
-- ==== Proof.PointSteps.lean ====
/-
  What one grid point of the kernel leaves in its accumulator.

  The accumulator is an [8, 128] buffer of which only the first eleven entries of row 0 are used. At a grid point the
  body stores, for k = 0, …, 10 in turn, the old entry (0, k) plus the k-th quantity of the point's utterance into
  entry (0, k); at the first point it fills the whole buffer with zero beforehand. Each of those eleven stores
  touches one entry, so entry (0, k) after the point is what the k-th store wrote, and the old value that store read
  is the entry as the point found it: the previous point's, or the zero of the fill. At the last point the body then
  reads the eleven entries back and stores the closing combination of them and of the mean band weight into the
  output.
-/
import proofs.«144318_j84593675862632_1_alg».proof.Proof.Gen.KernelIdeal.Frame
import proofs.«144318_j84593675862632_1_alg».proof.Proof.RowSumsPlain
import proofs.«144318_j84593675862632_1_alg».proof.Proof.RowSumsDiff
import proofs.«144318_j84593675862632_1_alg».proof.Proof.RowSumsClose
import Idealize.ShloMosaic.Lib.WritesUnit
import Idealize.ShloMosaic.Lib.Pipeline.Value
import Idealize.ShloMosaic.Lib.ValueIdx

set_option maxRecDepth 16384

noncomputable section

namespace Cert.MelLoss.Step

open Idealize.ShloMosaic Idealize.ShloMosaic.TcCoe Idealize.ShloMosaic.Tactic Idealize.ShloMosaic.ValueIdx
open Idealize.SL Idealize.SL.RA Idealize.SL.BI Idealize.SL.Sem
open Cert.KernelIdeal Cert.KernelIdeal.Gen Cert.MelLoss

theorem hz3 : (![0, 0, 0] : Fin 3 → Nat) = fun _ => 0 := by
  funext a; match a with | ⟨0, _⟩ => rfl | ⟨1, _⟩ => rfl | ⟨2, _⟩ => rfl

section Entry
variable {sg : RefSig} {κ : Kind} {sp : Space} (v : View sg κ sp S8x128 .f32) (f : v.ty.Contents (Elt Ideal))

/-- Entry (0, j) of the buffer, after a newest store of one entry at (0, j), is that store's value. -/
theorem read_hit (j : Nat) (inb : ∀ a, (![0, j] : Fin 2 → Nat) a + (![1, 1] : Fin 2 → Nat) a ≤ S8x128.size a)
    (w : (Rect.unit (s := S8x128) ![0, j] ![1, 1] inb).shape.Idx → Elt Ideal .f32) (L : List (View.Piece (Elt Ideal) S8x128 .f32))
    (y : Fin 128) (hy : y.val = j) :
    v.read (Elt Ideal) (v.writes (Elt Ideal) f ((⟨Rect.unit ![0, j] ![1, 1] inb, w⟩ : View.Piece (Elt Ideal) S8x128 .f32) :: L)) (ix2 0 y)
      = w (ix2 0 0) :=
  View.read_writes_cons_unit_of_mem v f inb w L (ix2 0 y) (ix2 0 0) rfl
    (fun a => match a with
      | ⟨0, _⟩ => rfl
      | ⟨1, _⟩ => by show y.val = j + 0; omega)

/-- Entry (0, y) with y ≠ j, after a newest store of one entry at (0, j), is what the earlier stores left. -/
theorem read_miss (j : Nat) (inb : ∀ a, (![0, j] : Fin 2 → Nat) a + (![1, 1] : Fin 2 → Nat) a ≤ S8x128.size a)
    (w : (Rect.unit (s := S8x128) ![0, j] ![1, 1] inb).shape.Idx → Elt Ideal .f32) (L : List (View.Piece (Elt Ideal) S8x128 .f32))
    (y : Fin 128) (hy : y.val ≠ j) :
    v.read (Elt Ideal) (v.writes (Elt Ideal) f ((⟨Rect.unit ![0, j] ![1, 1] inb, w⟩ : View.Piece (Elt Ideal) S8x128 .f32) :: L)) (ix2 0 y)
      = v.read (Elt Ideal) (v.writes (Elt Ideal) f L) (ix2 0 y) :=
  View.read_writes_cons_unit_of_not_mem v f inb w L (ix2 0 y) rfl (1 : Fin 2)
    (by show y.val < j ∨ j + 1 ≤ y.val; omega)

/-- After one store of the whole buffer, every entry is that store's value there. -/
theorem read_fill (inb : ∀ a, (![0, 0] : Fin 2 → Nat) a + S8x128.size a ≤ S8x128.size a)
    (w : (Rect.unit (s := S8x128) ![0, 0] S8x128.size inb).shape.Idx → Elt Ideal .f32) (y : S8x128.Idx) :
    v.read (Elt Ideal) (v.writes (Elt Ideal) f [(⟨Rect.unit ![0, 0] S8x128.size inb, w⟩ : View.Piece (Elt Ideal) S8x128 .f32)]) y
      = w y :=
  View.read_writes_cons_unit_of_mem v f inb w [] y y rfl
    (fun a => match a with
      | ⟨0, _⟩ => (Nat.zero_add _).symm
      | ⟨1, _⟩ => (Nat.zero_add _).symm)

/-- A load of the one entry (0, j), read at its one index, is entry (0, j) of the contents. -/
theorem ld_entry (X : S8x128.Idx → Elt Ideal .f32) (j : Nat)
    (inb : ∀ a, (![0, j] : Fin 2 → Nat) a + (![1, 1] : Fin 2 → Nat) a ≤ S8x128.size a) (hj : j < 128) :
    View.ld X (Rect.unit (s := S8x128) ![0, j] ![1, 1] inb) (ix2 0 0) = X (ix2 0 ⟨j, hj⟩) :=
  congrArg X (funext fun a => Fin.ext (match a with
    | ⟨0, _⟩ => rfl
    | ⟨1, _⟩ => by show j + 1 * 0 = j; omega))

end Entry

/-- The zero fill's value at every entry is zero. -/
theorem fill_apply (y : S8x128.Idx) : k0_pay11 (F := Ideal) y = zero := by
  unfold k0_pay11
  rw [shapeCast_self]
  rfl

/-- After one store of the whole [1, 1] output block, its one entry is that store's value. -/
theorem read_out {sg : RefSig} {κ : Kind} {sp : Space} (v : View sg κ sp S1x1 .f32) (f : v.ty.Contents (Elt Ideal))
    (inb : ∀ a, (![0, 0] : Fin 2 → Nat) a + (![1, 1] : Fin 2 → Nat) a ≤ S1x1.size a)
    (w : (Rect.unit (s := S1x1) ![0, 0] ![1, 1] inb).shape.Idx → Elt Ideal .f32) :
    v.read (Elt Ideal) (v.writes (Elt Ideal) f [(⟨Rect.unit ![0, 0] ![1, 1] inb, w⟩ : View.Piece (Elt Ideal) S1x1 .f32)]) (ix2 0 0)
      = w (ix2 0 0) :=
  View.read_writes_cons_unit_of_mem v f inb w [] (ix2 0 0) (ix2 0 0) rfl
    (fun a => match a with
      | ⟨0, _⟩ => rfl
      | ⟨1, _⟩ => rfl)

/-- Skip the newer single-entry stores that miss the entry, then read the store that holds it. -/
macro "to_store" : tactic => `(tactic| (
  repeat (rw [read_miss _ _ _ _ _ _ _ ?hm]; case hm => (dsimp only; decide))
  refine (read_hit _ _ _ _ _ _ _ ?hh).trans ?_
  case hh => rfl))

/-- The loads of the whole input blocks read the blocks; a load of one accumulator entry reads that entry. -/
macro "blocks_read" : tactic => `(tactic| (
  simp only [View.readAt_eq_ld, Memref.IsWhole.read_unread,
    View.ld_unit_zero (S := S1x4000x80) hz3, View.ld_unit_zero (S := S1x4000x1) hz3, View.ld_unit_zero (S := S1x1x80) hz3]))

/-- The stored value is the old entry plus the slot's quantity. -/
macro "old_plus_new" : tactic => `(tactic| first
  | rw [Row.add0, Row.val0 _ _ _ _] | rw [Row.add1, Row.val1 _ _ _ _] | rw [Row.add2, Row.val2 _ _ _ _]
  | rw [Row.add3, Row.val3 _ _ _ _] | rw [Row.add4, Row.val4 _ _ _ _] | rw [Row.add5, Row.val5 _ _ _ _]
  | rw [Row.add6, Row.val6 _ _ _ _] | rw [Row.add7, Row.val7 _ _ _ _] | rw [Row.add8, Row.val8 _ _ _ _]
  | rw [Row.add9, Row.val9 _ _ _ _] | rw [Row.add10, Row.val10 _ _ _ _])

/-- One slot of a point that finds the accumulator at xs0. -/
macro "slot_over" : tactic => `(tactic| (
  to_store
  blocks_read
  old_plus_new
  rw [ld_entry _ _ _ ?hj]
  all_goals omega))

/-- One slot of the first point: the old entry is read back through the stores before it down to the zero fill. -/
macro "slot_first" : tactic => `(tactic| (
  to_store
  blocks_read
  old_plus_new
  congr 1
  unfold View.readCov
  rw [View.readAt_eq_ld, ld_entry _ _ _ ?hj]
  case hj => omega
  repeat (rw [read_miss _ _ _ _ _ _ _ ?hm]; case hm => (dsimp only; decide))
  rw [read_fill, fill_apply]))

section Point
variable (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (x0 : Vec Ideal S1x4000x80 .f32) (x1 : Vec Ideal S1x4000x80 .f32) (x2 : Vec Ideal S1x4000x1 .f32) (x3 : Vec Ideal S1x1x80 .f32) (x4 : Vec Ideal S1x1 .f32)

/-- THE FIRST POINT leaves, in entry (0, k), zero plus the k-th quantity of its utterance. -/
theorem after_first (hc0 : cond0_0 i) (hc1 : ¬cond0_1 i) (k : Nat) (hk : k < 11) :
    sout0_A_0 c i arg1 harg1 arg2 harg2 arg3 harg3 arg4 harg4 arg5 harg5 arg6 harg6 arg7 harg7 hc0 hc1 x0 x1 x2 x3 x4 (ix2 0 ⟨k, by omega⟩) = zero + rowPart (rowOf x0) (rowOf x1) (colOf x2) (bandsOf x3) k := by
  unfold sout0_A_0
  unfold kernelRun0_A
  dsimp only
  sl_unfold_words
  match k, hk with
  | 0, _ => slot_first
  | 1, _ => slot_first
  | 2, _ => slot_first
  | 3, _ => slot_first
  | 4, _ => slot_first
  | 5, _ => slot_first
  | 6, _ => slot_first
  | 7, _ => slot_first
  | 8, _ => slot_first
  | 9, _ => slot_first
  | 10, _ => slot_first
  | n + 11, h => exact absurd h (by omega)

/-- A MIDDLE POINT that finds the accumulator at xs0 leaves, in entry (0, k), xs0's entry plus the k-th quantity. -/
theorem after_middle (hc0 : ¬cond0_0 i) (hc1 : ¬cond0_1 i) (xs0 : Vec Ideal S8x128 .f32) (k : Nat) (hk : k < 11) :
    sout0_B_0 c i arg1 harg1 arg2 harg2 arg3 harg3 arg4 harg4 arg5 harg5 arg6 harg6 arg7 harg7 hc0 hc1 x0 x1 x2 x3 x4 xs0 (ix2 0 ⟨k, by omega⟩) = xs0 (ix2 0 ⟨k, by omega⟩) + rowPart (rowOf x0) (rowOf x1) (colOf x2) (bandsOf x3) k := by
  unfold sout0_B_0
  unfold kernelRun0_B
  dsimp only
  sl_unfold_words
  match k, hk with
  | 0, _ => slot_over
  | 1, _ => slot_over
  | 2, _ => slot_over
  | 3, _ => slot_over
  | 4, _ => slot_over
  | 5, _ => slot_over
  | 6, _ => slot_over
  | 7, _ => slot_over
  | 8, _ => slot_over
  | 9, _ => slot_over
  | 10, _ => slot_over
  | n + 11, h => exact absurd h (by omega)

/-- THE LAST POINT, which finds the accumulator at xs0, leaves the same in the accumulator. -/
theorem after_last (hc0 : ¬cond0_0 i) (hc1 : cond0_1 i) (xs0 : Vec Ideal S8x128 .f32) (k : Nat) (hk : k < 11) :
    sout0_C_0 c i arg1 harg1 arg2 harg2 arg3 harg3 arg4 harg4 arg5 harg5 arg6 harg6 arg7 harg7 hc0 hc1 x0 x1 x2 x3 x4 xs0 (ix2 0 ⟨k, by omega⟩) = xs0 (ix2 0 ⟨k, by omega⟩) + rowPart (rowOf x0) (rowOf x1) (colOf x2) (bandsOf x3) k := by
  unfold sout0_C_0
  unfold kernelRun0_C
  dsimp only
  sl_unfold_words
  match k, hk with
  | 0, _ => slot_over
  | 1, _ => slot_over
  | 2, _ => slot_over
  | 3, _ => slot_over
  | 4, _ => slot_over
  | 5, _ => slot_over
  | 6, _ => slot_over
  | 7, _ => slot_over
  | 8, _ => slot_over
  | 9, _ => slot_over
  | 10, _ => slot_over
  | n + 11, h => exact absurd h (by omega)

end Point

end Cert.MelLoss.Step

end
-- ==== Proof.LastStore.lean ====
/-
  What the last grid point stores into the output.

  After its eleven accumulation stores the last point reads the eleven entries back, together with the mean band
  weight, and stores their closing combination into the one entry of the output block. Each entry read back is what
  the accumulation store of its slot wrote: the entry the point found plus the slot's quantity of the last utterance.
-/
import proofs.«144318_j84593675862632_1_alg».proof.Proof.PointSteps

set_option maxRecDepth 16384

noncomputable section

namespace Cert.MelLoss.Step

open Idealize.ShloMosaic Idealize.ShloMosaic.TcCoe Idealize.ShloMosaic.Tactic Idealize.ShloMosaic.ValueIdx
open Idealize.SL Idealize.SL.RA Idealize.SL.BI Idealize.SL.Sem
open Cert.KernelIdeal Cert.KernelIdeal.Gen Cert.MelLoss

theorem hz2 : (![0, 0] : Fin 2 → Nat) = fun _ => 0 := by
  funext a; match a with | ⟨0, _⟩ => rfl | ⟨1, _⟩ => rfl

/-- THE LAST POINT, which finds the accumulator at xs0, stores into the output the closing combination of the
    eleven entries it leaves in the accumulator (s names them) and of the mean band weight it is handed. -/
theorem last_store (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (x0 : Vec Ideal S1x4000x80 .f32) (x1 : Vec Ideal S1x4000x80 .f32) (x2 : Vec Ideal S1x4000x1 .f32) (x3 : Vec Ideal S1x1x80 .f32) (x4 : Vec Ideal S1x1 .f32)
    (hc0 : ¬cond0_0 i) (hc1 : cond0_1 i) (xs0 : Vec Ideal S8x128 .f32) (s : Nat → EReal)
    (hs : ∀ (k : Nat) (hk : k < 11), s k = xs0 (ix2 0 ⟨k, by omega⟩) + rowPart (rowOf x0) (rowOf x1) (colOf x2) (bandsOf x3) k) :
    out0_C_5 c i arg1 harg1 arg2 harg2 arg3 harg3 arg4 harg4 arg5 harg5 arg6 harg6 arg7 harg7 hc0 hc1 x0 x1 x2 x3 x4 xs0 (ix2 0 0) = fin s (x4 (ix2 0 0)) := by
  unfold out0_C_5
  unfold kernelRun0_C
  dsimp only
  sl_unfold_words
  refine (read_out _ _ _ _).trans ?_
  have hx4 : View.readAt (Elt Ideal) arg5.view (Rect.unit ![0, 0] S1x1.size inb_S1x1_S1x1_0_0).toLoadRect (harg5.unread x4) = x4 := by
    rw [View.readAt_eq_ld, harg5.read_unread, View.ld_unit_zero (S := S1x1) hz2]
  rw [hx4]
  refine Row.closing _ _ _ _ _ _ _ _ _ _ _ x4 s ?_ ?_ ?_ ?_ ?_ ?_ ?_ ?_ ?_ ?_ ?_
  all_goals (
    refine (hs _ (by omega)).trans ?_
    symm
    unfold View.readCov
    rw [View.readAt_eq_ld, ld_entry _ _ _ ?hj]
    case hj => omega
    slot_over)

end Cert.MelLoss.Step

end
-- ==== Proof.BlockRows.lean ====
/-
  What the kernel's blocks hold, as entries of the argument arrays.

  Grid point t (one of 64) stages utterance t: the prediction's and the target's blocks are the slabs [t, :, :] of
  their arrays, the mask's block is the column [t, :, 0] of the mask viewed as [64, 4000, 1], the weights' block is
  the whole row [1, 1, 80] of the weights viewed so, and the mean's block is the one entry of the mean band weight,
  computed before the launch as the sum of the 80 weights from zero over 80. Each view is a reshape that keeps
  row-major order, so an entry of a view is the entry of the array at the same row-major position. Hence the eleven
  quantities of the point's blocks are those of utterance t of the arrays.
-/
import proofs.«144318_j84593675862632_1_alg».proof.Proof.Gen.KernelIdeal.Frame
import proofs.«144318_j84593675862632_1_alg».proof.Proof.MelLoss
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

open scoped BigOperators

namespace Cert.MelLoss.Blocks

open Idealize.ShloMosaic Idealize.ShloMosaic.TcCoe Idealize.ShloMosaic.ValueIdx Idealize.ShloMosaic.StableHlo
open Idealize.SL.Sem
open Cert.KernelIdeal Cert.KernelIdeal.Gen Cert.MelLoss

variable (m : (ℓ : Loc nD τ sig) → Buf (Elt Ideal) ℓ)

/-- A rank-1 index set is its one coordinate range, so a sum over it is the sum over the coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- The four argument arrays as the kernel's launch finds them. -/
abbrev arrP (c : Dev nD) : Sh3.Idx → EReal := m ((c : Thread nD τ).loc main_arg0)
abbrev arrQ (c : Dev nD) : Sh3.Idx → EReal := m ((c : Thread nD τ).loc main_arg1)
abbrev arrM (c : Dev nD) : Sh2.Idx → EReal := m ((c : Thread nD τ).loc main_arg2)
abbrev arrW (c : Dev nD) : Sh1.Idx → EReal := m ((c : Thread nD τ).loc main_arg3)

/-- The blocks of grid point t. -/
abbrev blkP (c : Dev nD) (t : Fin cfg0.N) : Vec Ideal S1x4000x80 .f32 := iblk m c 0 t
abbrev blkQ (c : Dev nD) (t : Fin cfg0.N) : Vec Ideal S1x4000x80 .f32 := iblk m c 1 t
abbrev blkM (c : Dev nD) (t : Fin cfg0.N) : Vec Ideal S1x4000x1 .f32 := iblk m c 2 t
abbrev blkW (c : Dev nD) (t : Fin cfg0.N) : Vec Ideal S1x1x80 .f32 := iblk m c 3 t
abbrev blkMean (c : Dev nD) (t : Fin cfg0.N) : Vec Ideal S1x1 .f32 := iblk m c 4 t

/-- The utterance a grid point stages. -/
abbrev utt (t : Fin cfg0.N) : Fin 64 := ⟨t.val, (by have := t.isLt; have : cfg0.N = 64 := N_0; omega)⟩

/-- The block indices, decided over the grid: point t takes block t along the batch axis of the first three windows
    and block 0 everywhere else. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0 :=
  (by decide +kernel : ∀ t : Fin grid0.N, _)

/-- An entry of the prediction's block is the entry of the array in utterance t. -/
theorem blkP_apply (c : Dev nD) (t : Fin cfg0.N) (f : Fin 4000) (d : Fin 80) :
    blkP m c t (ix3 0 f d) = arrP m c (ix3 (utt t) f d) := by
  obtain ⟨e0, e1, e2, -⟩ := idx_facts t
  refine Eq.trans ?_ (congrFun (V_main_arg0 m c) (ix3 (utt t) f d))
  show V m c main_arg0 (((cfg0.win 0).blk t).view.emb (ix3 0 f d)) = V m c main_arg0 (ix3 (utt t) f d)
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 4000 + 1 * f.val = f.val; omega
  | ⟨2, _⟩ => show win0_0.index t (2 : Fin 3) * 80 + 1 * d.val = d.val; omega

/-- An entry of the target's block is the entry of the array in utterance t. -/
theorem blkQ_apply (c : Dev nD) (t : Fin cfg0.N) (f : Fin 4000) (d : Fin 80) :
    blkQ m c t (ix3 0 f d) = arrQ m c (ix3 (utt t) f d) := by
  obtain ⟨-, -, -, e0, e1, e2, -⟩ := idx_facts t
  refine Eq.trans ?_ (congrFun (V_main_arg1 m c) (ix3 (utt t) f d))
  show V m c main_arg1 (((cfg0.win 1).blk t).view.emb (ix3 0 f d)) = V m c main_arg1 (ix3 (utt t) f d)
  refine congrArg (V m c main_arg1) (funext fun a => Fin.ext ?_)
  match a with
  | ⟨0, _⟩ => show win0_1.index t (0 : Fin 3) * 1 + 1 * 0 = t.val; omega
  | ⟨1, _⟩ => show win0_1.index t (1 : Fin 3) * 4000 + 1 * f.val = f.val; omega
  | ⟨2, _⟩ => show win0_1.index t (2 : Fin 3) * 80 + 1 * d.val = d.val; omega

/-- The mask as the launch finds it, viewed as [64, 4000, 1]. -/
theorem mask_view (c : Dev nD) :
    (V m c main_v3 : S64x4000x1.Idx → EReal) = shapeCast S64x4000x1 (arrM m c) shapeCasts_S64x4000_S64x4000x1 := by
  show StableHlo.after hostOps0 (fun b => m (c, b)) (Proc.devRef .tc main_v3) = _
  after_results
  rfl

/-- The weights as the launch finds them, viewed as [1, 1, 80]. -/
theorem weights_view (c : Dev nD) :
    (V m c main_v4 : S1x1x80.Idx → EReal) = shapeCast S1x1x80 (arrW m c) shapeCasts_S80_S1x1x80 := by
  show StableHlo.after hostOps0 (fun b => m (c, b)) (Proc.devRef .tc main_v4) = _
  after_results
  rfl

/-- The mean band weight as the launch finds it: the host's sum of the weights from zero, over 80, viewed as [1, 1]. -/
theorem mean_view (c : Dev nD) :
    (V m c main_v2 : S1x1.Idx → EReal)
      = shapeCast S1x1 (Host.divf (Host.reduceAdd (arrW m c) (constant (F := Ideal) S_ .f32 0x00000000#32) reducesTo_S80_S_d0 h_S_)
          (constant (F := Ideal) S_ .f32 0x42A00000#32)) shapeCasts_S_S1x1 := by
  show StableHlo.after hostOps0 (fun b => m (c, b)) (Proc.devRef .tc main_v2) = _
  after_results
  rfl

/-- An entry of the mask's block is the mask at (utterance t, frame). -/
theorem blkM_apply (c : Dev nD) (t : Fin cfg0.N) (f : Fin 4000) :
    blkM m c t (ix3 0 f 0) = arrM m c (ix2 (utt t) f) := by
  obtain ⟨-, -, -, -, -, -, e0, e1, e2, -⟩ := idx_facts t
  have hb : blkM m c t (ix3 0 f 0) = (V m c main_v3 : S64x4000x1.Idx → EReal) (ix3 (utt t) f 0) := by
    show V m c main_v3 (((cfg0.win 2).blk t).view.emb (ix3 0 f 0)) = V m c main_v3 (ix3 (utt t) f 0)
    refine congrArg (V m c main_v3) (funext fun a => Fin.ext ?_)
    match a with
    | ⟨0, _⟩ => show win0_2.index t (0 : Fin 3) * 1 + 1 * 0 = t.val; omega
    | ⟨1, _⟩ => show win0_2.index t (1 : Fin 3) * 4000 + 1 * f.val = f.val; omega
    | ⟨2, _⟩ => show win0_2.index t (2 : Fin 3) * 1 + 1 * 0 = 0; omega
  rw [hb, mask_view]
  exact shapeCast_apply _ _ _ _ (by
    rw [Shape.rowMajor_val_two, Shape.rowMajor_val_three]
    show t.val * 4000 + f.val = (t.val * 4000 + f.val) * 1 + 0
    omega)

/-- An entry of the weights' block is the weight of its band. -/
theorem blkW_apply (c : Dev nD) (t : Fin cfg0.N) (d : Fin 80) :
    blkW m c t (ix3 0 0 d) = arrW m c (ix1 d) := by
  obtain ⟨-, -, -, -, -, -, -, -, -, e0, e1, e2, -⟩ := idx_facts t
  have hb : blkW m c t (ix3 0 0 d) = (V m c main_v4 : S1x1x80.Idx → EReal) (ix3 0 0 d) := by
    show V m c main_v4 (((cfg0.win 3).blk t).view.emb (ix3 0 0 d)) = V m c main_v4 (ix3 0 0 d)
    refine congrArg (V m c main_v4) (funext fun a => Fin.ext ?_)
    match a with
    | ⟨0, _⟩ => show win0_3.index t (0 : Fin 3) * 1 + 1 * 0 = 0; omega
    | ⟨1, _⟩ => show win0_3.index t (1 : Fin 3) * 1 + 1 * 0 = 0; omega
    | ⟨2, _⟩ => show win0_3.index t (2 : Fin 3) * 80 + 1 * d.val = d.val; omega
  rw [hb, weights_view]
  exact shapeCast_apply _ _ _ _ (by
    rw [Shape.rowMajor_val_one, Shape.rowMajor_val_three]
    show d.val = (0 * 1 + 0) * 80 + d.val
    omega)

/-- The one entry of the mean's block is the mean band weight. -/
theorem blkMean_apply (c : Dev nD) (t : Fin cfg0.N) :
    blkMean m c t (ix2 0 0) = meanW (arrW m c) := by
  obtain ⟨-, -, -, -, -, -, -, -, -, -, -, -, e0, e1⟩ := idx_facts t
  have hb : blkMean m c t (ix2 0 0) = (V m c main_v2 : S1x1.Idx → EReal) (ix2 0 0) := by
    show V m c main_v2 (((cfg0.win 4).blk t).view.emb (ix2 0 0)) = V m c main_v2 (ix2 0 0)
    refine congrArg (V m c main_v2) (funext fun a => Fin.ext ?_)
    match a with
    | ⟨0, _⟩ => show win0_4.index t (0 : Fin 2) * 1 + 1 * 0 = 0; omega
    | ⟨1, _⟩ => show win0_4.index t (1 : Fin 2) * 1 + 1 * 0 = 0; omega
  rw [hb, mean_view]
  refine (shapeCast_apply _ _ _ ix0 (by
    rw [Shape.rowMajor_val_two]
    show (S_.rowMajor ix0).val = 0 * 1 + 0
    exact Nat.lt_one_iff.mp (S_.rowMajor ix0).isLt)).trans ?_
  unfold meanW
  show Ideal.div (Ideal.hostReduceAdd reducesTo_S80_S_d0 (arrW m c) (Ideal.ofBits .f32 0x00000000#32) ix0) (Ideal.ofBits .f32 0x42A00000#32) = _
  rw [Ideal.hostReduceAdd_total reducesTo_S80_S_d0 (fun b => b.elim0)]
  congr 2
  exact sum_idx1 (arrW m c)

/-- The eleven quantities of grid point t's blocks are those of utterance t of the arrays. -/
theorem rowPart_blocks (c : Dev nD) (t : Fin cfg0.N) (k : Nat) :
    rowPart (rowOf (blkP m c t)) (rowOf (blkQ m c t)) (colOf (blkM m c t)) (bandsOf (blkW m c t)) k
      = part (arrP m c) (arrQ m c) (arrM m c) (arrW m c) k (utt t) := by
  unfold part
  have hP : rowOf (blkP m c t) = fun f d => arrP m c (ix3 (utt t) f d) := funext fun f => funext fun d => blkP_apply m c t f d
  have hQ : rowOf (blkQ m c t) = fun f d => arrQ m c (ix3 (utt t) f d) := funext fun f => funext fun d => blkQ_apply m c t f d
  have hM : colOf (blkM m c t) = fun f => arrM m c (ix2 (utt t) f) := funext fun f => blkM_apply m c t f
  have hW : bandsOf (blkW m c t) = fun d => arrW m c (ix1 d) := funext fun d => blkW_apply m c t d
  rw [hP, hQ, hM, hW]

end Cert.MelLoss.Blocks

end
-- ==== Proof.LibSumIdx.lean ====
/-
  Sums over index sets of rank 3, and the arithmetic that turns a count taken row by row into a count taken entry
  by entry.

  A rank-3 index set is the product of its three coordinate ranges, so a sum over it is the triple sum over the
  coordinates, in any order of the three. A finite sum of reals coerces to the extended reals term by term. For real
  r, adding r to itself n times is r · n; so for a family r_t of reals, (Σ_t r_t) · n = Σ_t Σ_{d < n} r_t on the
  extended reals: the count of a mask broadcast along an axis of length n is n times the count of the mask. This is
  the one place where finiteness matters: on the extended reals multiplication does not distribute over a sum that
  mixes the two infinities. The f32 word of 80.0 denotes the real 80.
-/
import Idealize.ShloMosaic.PureOps.Ideal
import Idealize.ShloMosaic.Lib.ValueIdx

noncomputable section

open scoped BigOperators

namespace Cert.LibSumIdx

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The triple sum with the last two coordinates summed in the other order. -/
theorem sum_idx3_swap {M : Type*} [AddCommMonoid M] {n0 n1 n2 : Nat} (f : (⟨3, ![n0, n1, n2]⟩ : Shape).Idx → M) :
    ∑ i, f i = ∑ a : Fin n0, ∑ c : Fin n2, ∑ b : Fin n1, f (ix3 a b c) := by
  rw [sum_idx3]
  exact Finset.sum_congr rfl fun a _ => Finset.sum_comm

/-- A finite sum of reals, coerced, is the sum of the coerced terms. -/
theorem coe_sum {ι : Type*} (s : Finset ι) (r : ι → ℝ) : ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-- A real added to itself n times, on the extended reals, is the real times n. -/
theorem sum_const_coe (n : ℕ) (r : ℝ) : ∑ _d : Fin n, (r : EReal) = (r : EReal) * ((n : ℝ) : EReal) := by
  rw [← coe_sum Finset.univ (fun _ : Fin n => r), Finset.sum_const, Finset.card_univ, Fintype.card_fin, nsmul_eq_mul,
    ← EReal.coe_mul, mul_comm]

/-- The count law: a finite family's sum times n is the sum of the family with each term repeated n times. -/
theorem sum_mul_eq_sum_repeat {ι : Type*} [Fintype ι] (n : ℕ) (x : ι → EReal) (hx : ∀ i, ∃ r : ℝ, x i = (r : EReal)) :
    (∑ i, x i) * ((n : ℝ) : EReal) = ∑ i, ∑ _d : Fin n, x i := by
  choose r hr using hx
  simp only [hr]
  rw [← coe_sum Finset.univ r, ← EReal.coe_mul, Finset.sum_mul, coe_sum]
  exact Finset.sum_congr rfl fun i _ => by rw [sum_const_coe, EReal.coe_mul]

/-- A product of finite values is finite. -/
theorem finite_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The f32 word of 80.0 denotes the real 80. -/
theorem ofBits_eighty : Ideal.ofBits .f32 0x42A00000#32 = ((80 : ℝ) : EReal) := by
  simp [Ideal.ofBits, Ideal.ieee, -EReal.coe_mul]; norm_num

/-- The f32 word of +0.0 denotes 0. -/
theorem ofBits_zero : Ideal.ofBits .f32 0x00000000#32 = 0 := by
  simp [Ideal.ofBits, Ideal.ieee]

end Cert.LibSumIdx

end
-- ==== Proof.Accumulate.lean ====
/-
  The accumulator over the grid, and the value the kernel stores.

  By induction on the grid point n: after point n, entry (0, k) of the accumulator is the running total of the k-th
  quantity over the utterances 0, …, n. The first point leaves zero plus its own quantity; every later point adds
  its own to what the point before left. The last point, 63, then stores the closing combination of the eleven
  totals over the whole batch and of the mean band weight: the loss.
-/
import proofs.«144318_j84593675862632_1_alg».proof.Proof.PointSteps
import proofs.«144318_j84593675862632_1_alg».proof.Proof.LastStore
import proofs.«144318_j84593675862632_1_alg».proof.Proof.BlockRows
import proofs.«144318_j84593675862632_1_alg».proof.Proof.LibSumIdx

set_option maxRecDepth 16384

noncomputable section

namespace Cert.MelLoss.Acc

open Idealize.ShloMosaic Idealize.ShloMosaic.TcCoe Idealize.ShloMosaic.ValueIdx
open Idealize.SL.Sem
open Cert.KernelIdeal Cert.KernelIdeal.Gen Cert.MelLoss Cert.MelLoss.Blocks Cert.MelLoss.Step

variable (m : (ℓ : Loc nD τ sig) → Buf (Elt Ideal) ℓ)

/-- The first point: zero plus the quantity of its utterance. -/
theorem at_first (c : Dev nD) (t : Fin cfg0.N) (h0 : t.val % 64 = 0) (h1 : ¬t.val % 64 = 63) (k : Nat) (hk : k < 11) :
    (outsAt0 m c t.val t.isLt).2 (ix2 0 ⟨k, by omega⟩) = zero + part (arrP m c) (arrQ m c) (arrM m c) (arrW m c) k (utt t) := by
  rw [outsAt0_A m c t h0 h1]
  dsimp only
  exact (after_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (blkP m c t) (blkQ m c t) (blkM m c t) (blkW m c t) (blkMean m c t) ((hcond0_0 t).mpr h0) (fun h => h1 ((hcond0_1 t).mp h)) k hk).trans
    (congrArg (fun z => zero + z) (rowPart_blocks m c t k))

/-- A middle point: what the point before left plus the quantity of its utterance. -/
theorem at_middle (c : Dev nD) (t : Fin cfg0.N) (h0 : ¬t.val % 64 = 0) (h1 : ¬t.val % 64 = 63) (k : Nat) (hk : k < 11) :
    (outsAt0 m c t.val t.isLt).2 (ix2 0 ⟨k, by omega⟩)
      = (outsAt0 m c (t.val - 1) (Nat.lt_of_le_of_lt (Nat.sub_le _ _) t.isLt)).2 (ix2 0 ⟨k, by omega⟩) + part (arrP m c) (arrQ m c) (arrM m c) (arrW m c) k (utt t) := by
  rw [outsAt0_B m c t h0 h1]
  dsimp only
  exact (after_middle c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (blkP m c t) (blkQ m c t) (blkM m c t) (blkW m c t) (blkMean m c t) (fun h => h0 ((hcond0_0 t).mp h)) (fun h => h1 ((hcond0_1 t).mp h))
      (outsAt0 m c (t.val - 1) (Nat.lt_of_le_of_lt (Nat.sub_le _ _) t.isLt)).2 k hk).trans
    (congrArg (fun z => (outsAt0 m c (t.val - 1) (Nat.lt_of_le_of_lt (Nat.sub_le _ _) t.isLt)).2 (ix2 0 ⟨k, by omega⟩) + z)
      (rowPart_blocks m c t k))

/-- The last point: likewise. -/
theorem at_last (c : Dev nD) (t : Fin cfg0.N) (h0 : ¬t.val % 64 = 0) (h1 : t.val % 64 = 63) (k : Nat) (hk : k < 11) :
    (outsAt0 m c t.val t.isLt).2 (ix2 0 ⟨k, by omega⟩)
      = (outsAt0 m c (t.val - 1) (Nat.lt_of_le_of_lt (Nat.sub_le _ _) t.isLt)).2 (ix2 0 ⟨k, by omega⟩) + part (arrP m c) (arrQ m c) (arrM m c) (arrW m c) k (utt t) := by
  rw [outsAt0_C m c t h0 h1]
  dsimp only
  exact (after_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (blkP m c t) (blkQ m c t) (blkM m c t) (blkW m c t) (blkMean m c t) (fun h => h0 ((hcond0_0 t).mp h)) ((hcond0_1 t).mpr h1)
      (outsAt0 m c (t.val - 1) (Nat.lt_of_le_of_lt (Nat.sub_le _ _) t.isLt)).2 k hk).trans
    (congrArg (fun z => (outsAt0 m c (t.val - 1) (Nat.lt_of_le_of_lt (Nat.sub_le _ _) t.isLt)).2 (ix2 0 ⟨k, by omega⟩) + z)
      (rowPart_blocks m c t k))

/-- THE ACCUMULATOR AFTER POINT n: the running totals over the utterances 0, …, n. -/
theorem acc_at (c : Dev nD) : ∀ (n : Nat) (hn : n < cfg0.N) (k : Nat) (hk : k < 11),
    (outsAt0 m c n hn).2 (ix2 0 ⟨k, by omega⟩) = upTo (arrP m c) (arrQ m c) (arrM m c) (arrW m c) k n := by
  intro n
  induction n with
  | zero =>
    intro hn k hk
    refine (at_first m c ⟨0, hn⟩ rfl (by show ¬((0 : Nat) % 64 = 63); decide) k hk).trans ?_
    rw [upTo_zero]
    show Ideal.ofBits .f32 0x00000000#32 + _ = _
    rw [LibSumIdx.ofBits_zero, zero_add]
  | succ n ih =>
    intro hn k hk
    have hN : n + 1 < 64 := lt_of_lt_of_eq hn N_0
    have h0 : ¬(n + 1) % 64 = 0 := by omega
    have step : (outsAt0 m c (n + 1) hn).2 (ix2 0 ⟨k, by omega⟩)
        = (outsAt0 m c n (Nat.lt_of_succ_lt hn)).2 (ix2 0 ⟨k, by omega⟩) + part (arrP m c) (arrQ m c) (arrM m c) (arrW m c) k ⟨n + 1, hN⟩ := by
      by_cases h1 : (n + 1) % 64 = 63
      · exact at_last m c ⟨n + 1, hn⟩ h0 h1 k hk
      · exact at_middle m c ⟨n + 1, hn⟩ h0 h1 k hk
    rw [step, ih (Nat.lt_of_succ_lt hn) k hk, upTo_succ _ _ _ _ k n hN]

/-- THE STORED VALUE: the last point (the one numbered 63) leaves the loss in the output block's one entry. -/
theorem out_at_last (c : Dev nD) (t : Fin cfg0.N) (ht : t.val = 63) :
    (outsAt0 m c t.val t.isLt).1 (ix2 0 0) = loss (arrP m c) (arrQ m c) (arrM m c) (arrW m c) := by
  have h0 : ¬t.val % 64 = 0 := by omega
  have h1 : t.val % 64 = 63 := by omega
  rw [outsAt0_C m c t h0 h1]
  dsimp only
  refine (last_store c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (blkP m c t) (blkQ m c t) (blkM m c t) (blkW m c t) (blkMean m c t) (fun h => h0 ((hcond0_0 t).mp h)) ((hcond0_1 t).mpr h1)
      (outsAt0 m c (t.val - 1) (Nat.lt_of_le_of_lt (Nat.sub_le _ _) t.isLt)).2 (fun k => upTo (arrP m c) (arrQ m c) (arrM m c) (arrW m c) k 63) ?_).trans ?_
  · intro k hk
    have hu : utt t = ⟨62 + 1, by omega⟩ := Fin.ext ht
    have hprev : (outsAt0 m c (t.val - 1) (Nat.lt_of_le_of_lt (Nat.sub_le _ _) t.isLt)).2 (ix2 0 ⟨k, by omega⟩)
        = upTo (arrP m c) (arrQ m c) (arrM m c) (arrW m c) k 62 :=
      (acc_at m c (t.val - 1) (Nat.lt_of_le_of_lt (Nat.sub_le _ _) t.isLt) k hk).trans
        (congrArg (upTo (arrP m c) (arrQ m c) (arrM m c) (arrW m c) k) (by omega))
    rw [hprev, rowPart_blocks m c t k, hu]
    exact upTo_succ _ _ _ _ k 62 (by omega)
  · rw [blkMean_apply m c t]
    unfold loss
    exact congrArg (fun s => fin s (meanW (arrW m c))) (funext fun k => upTo_last _ _ _ _ k)

end Cert.MelLoss.Acc

end
-- ==== Proof.KernelValue.lean ====
/-
  The kernel's run, with its result named.

  The output array is [1, 1] and its one block is written back at the last grid point only, so after the run it
  holds what that point stored: the loss. The lines after the launch view that array as a scalar, which keeps its one
  entry. So every run of the idealized kernel ends with the result at the loss of the four argument arrays, and the
  arguments unchanged.
-/
import proofs.«144318_j84593675862632_1_alg».proof.Proof.Accumulate
import Idealize.ShloMosaic.Lib.StableHlo.Run

set_option maxRecDepth 16384

noncomputable section

namespace Cert.MelLoss.KernelValue

open Idealize.ShloMosaic Idealize.ShloMosaic.TcCoe Idealize.ShloMosaic.ValueIdx Idealize.ShloMosaic.StableHlo
open Idealize.SL.Sem
open Cert.KernelIdeal Cert.KernelIdeal.Gen Cert.MelLoss Cert.MelLoss.Blocks

variable (m : (ℓ : Loc nD τ sig) → Buf (Elt Ideal) ℓ) (ρ : Dev nD → PrngReg)

theorem h63 : 63 < cfg0.N := by have : cfg0.N = 64 := N_0; omega

/-- Only the last point writes the output block back. -/
theorem flush_iff : ∀ t : Fin cfg0.N, (cfg0.win 5).flush t = true ↔ t.val = 63 :=
  (by decide +kernel : ∀ t : Fin grid0.N, _)

/-- Every index of a [1, 1] array is (0, 0). -/
theorem idx_one (y : S1x1.Idx) : y = ix2 0 0 := by
  funext a
  match a with
  | ⟨0, _⟩ => exact Fin.ext (Nat.lt_one_iff.mp (y 0).isLt)
  | ⟨1, _⟩ => exact Fin.ext (Nat.lt_one_iff.mp (y 1).isLt)

/-- The output's block index is (0, 0) at every point. -/
theorem idx_out : ∀ t : Fin cfg0.N, win0_5.index t (0 : Fin 2) = 0 ∧ win0_5.index t (1 : Fin 2) = 0 :=
  (by decide +kernel : ∀ t : Fin grid0.N, _)

/-- THE OUTPUT ARRAY after the run holds the loss. -/
theorem out_array (c : Dev nD) :
    (dats m 0 c).arrAt 5 cfg0.N = fun _ => loss (arrP m c) (arrQ m c) (arrM m c) (arrW m c) := by
  refine (dats m 0 c).arrAt_eq_of_cover 5 (fun _ => loss (arrP m c) (arrQ m c) (arrM m c) (arrW m c)) (fun t ht => ?_)
    (fun i => ⟨⟨63, h63⟩, (flush_iff ⟨63, h63⟩).mpr rfl, ?_⟩)
  · have ht63 : t.val = 63 := (flush_iff t).mp ht
    show (cfg0.win 5).cut (grid0.coords t) ((dats m 0 c).after 5 t) = _
    rw [after0_5]
    funext y
    show (outsAt0 m c t.val t.isLt).1 y = loss (arrP m c) (arrQ m c) (arrM m c) (arrW m c)
    rw [idx_one y]
    exact Acc.out_at_last m c t ht63
  · obtain ⟨e0, e1⟩ := idx_out ⟨63, h63⟩
    show i ∈ ((View.whole main_v5).slice (win0_5.rect ⟨63, h63⟩)).set
    rw [View.set_slice_whole, Rect.mem_set_unit]
    intro a
    match a with
    | ⟨0, _⟩ =>
      show win0_5.index ⟨63, h63⟩ (0 : Fin 2) * 1 ≤ (i 0).val ∧ (i 0).val < win0_5.index ⟨63, h63⟩ (0 : Fin 2) * 1 + 1
      have hi : (i 0).val < 1 := (i 0).isLt
      omega
    | ⟨1, _⟩ =>
      show win0_5.index ⟨63, h63⟩ (1 : Fin 2) * 1 ≤ (i 1).val ∧ (i 1).val < win0_5.index ⟨63, h63⟩ (1 : Fin 2) * 1 + 1
      have hi : (i 1).val < 1 := (i 1).isLt
      omega

/-- THE RESULT as the lines after the launch leave it: the output array viewed as a scalar, the loss. -/
theorem result_eq (c : Dev nD) :
    Pipeline.afterTail₀ cfgs (dats m) 0 (V0 m) [hostOps1] c main_v6 = fun _ => loss (arrP m c) (arrQ m c) (arrM m c) (arrW m c) := by
  unfold Pipeline.afterTail₀
  show StableHlo.after hostOps1 _ (Proc.devRef .tc main_v6) = _
  after_results
  rw [Pipeline.withArrays_arr spec0 launch0.win.arr_inj c _ _ 5]
  rw [out_array m c]
  rfl

/-- THE RUN: every weakly fair execution of the idealized kernel terminates with the result at the loss of the four
    argument arrays and the arguments unchanged. -/
theorem run : θ_run defs (onTc (τ := τ) (main (F := Ideal))) ⟨m, fun _ => 0, ρ⟩ (fun r => ∀ c : Dev nD,
      r.2.mem ((c.tc : Thread nD τ).loc main_v6) = (fun _ => loss (arrP m c) (arrQ m c) (arrM m c) (arrW m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_v6 (Pipeline.mem_restRefs_of main_v6 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.MelLoss.KernelValue

end
-- ==== Proof.RefSumsPlain.lean ====
/- The reference's whole-array sums of the plain quantities are the batch totals, and its mean band weight is the mean. -/
import proofs.«144318_j84593675862632_1_alg».proof.Proof.Gen.ReferenceIdeal.Read
import proofs.«144318_j84593675862632_1_alg».proof.Proof.MelLoss
import proofs.«144318_j84593675862632_1_alg».proof.Proof.LibSumIdx
import Idealize.ShloMosaic.Lib.ValueIdx
import Idealize.ShloMosaic.Lib.Pipeline.Value
import Idealize.ShloMosaic.PureOps.Ideal.Laws

noncomputable section

open scoped BigOperators

namespace Cert.MelLoss.Ref

open Idealize.ShloMosaic Idealize.ShloMosaic.ValueIdx Cert.ReferenceIdeal Cert.ReferenceIdeal.Read Cert.MelLoss Cert.LibSumIdx

variable (x0 x1 : (⟨S64x4000x80, .f32⟩ : BufTy).Contents (Elt Ideal)) (x2 : (⟨S64x4000, .f32⟩ : BufTy).Contents (Elt Ideal))
  (x3 : (⟨S80, .f32⟩ : BufTy).Contents (Elt Ideal))

/-- The mask's broadcast to [64, 4000, 80], read at (b, t, d), is the mask at (b, t). -/
private theorem idx_mask (b : Fin 64) (t : Fin 4000) (d : Fin 80) :
    idx_main_v0 (idx_main_v6 (ix3 b t d)) = ix2 b t := by
  funext a
  match a with
  | ⟨0, _⟩ => rfl
  | ⟨1, _⟩ => rfl

/-- The band weights' broadcast to [64, 4000, 80], read at (b, t, d), is the weight of band d. -/
private theorem idx_band (b : Fin 64) (t : Fin 4000) (d : Fin 80) :
    idx_main_v68 (idx_main_v69 (ix3 b t d)) = ix1 d := by
  funext a
  match a with
  | ⟨0, _⟩ => rfl

/-- A rank-1 index set is its one coordinate range, so a sum over it is the sum over the coordinate. -/
private theorem sum_idx1 {M : Type*} [AddCommMonoid M] {n : Nat} (f : (⟨1, ![n]⟩ : Shape).Idx → M) :
    ∑ i, f i = ∑ a : Fin n, f (ix1 a) := by
  let e : Fin n ≃ (⟨1, ![n]⟩ : Shape).Idx :=
    { toFun := fun a => ix1 a
      invFun := fun i => i 0
      left_inv := fun _ => rfl
      right_inv := fun i => (eq_ix1 i).symm }
  exact (Equiv.sum_comp e f).symm

theorem tot0 : val_main_v8 (F := Ideal) x0 x1 x2 ix0 = tot x0 x1 x2 x3 0 := by
  rw [val_main_v8_apply, val_main_cst_1_apply, Ideal.ofBits_def, ofBits_zero, zero_add, sum_idx3_swap]
  unfold tot part
  simp only [rowPart]
  refine Finset.sum_congr rfl fun b _ => Finset.sum_congr rfl fun d _ => Finset.sum_congr rfl fun t _ => ?_
  rw [val_main_v7_apply, val_main_v2_apply, val_main_v1_apply, val_main_v6_apply, val_main_v0_apply, idx_mask]
  rfl

theorem tot1 : val_main_v76 (F := Ideal) x0 x1 x2 x3 ix0 = tot x0 x1 x2 x3 1 := by
  rw [val_main_v76_apply, val_main_cst_15_apply, Ideal.ofBits_def, ofBits_zero, zero_add, sum_idx3_swap]
  unfold tot part
  simp only [rowPart]
  refine Finset.sum_congr rfl fun b _ => Finset.sum_congr rfl fun d _ => Finset.sum_congr rfl fun t _ => ?_
  have hm : idx_main_v0 (idx_main_v74 (ix3 b t d)) = ix2 b t := idx_mask b t d
  rw [val_main_v75_apply, val_main_v70_apply, val_main_v2_apply, val_main_v1_apply, val_main_v69_apply,
    val_main_v68_apply, val_main_v74_apply, val_main_v0_apply, idx_band, hm]
  -- (|p − q| · w) · m = (|p − q| · m) · w
  exact mul_right_comm _ _ _

theorem tot7 : val_main_v59 (F := Ideal) x0 x1 x2 ix0 = tot x0 x1 x2 x3 7 := by
  rw [val_main_v59_apply, val_main_cst_10_apply, Ideal.ofBits_def, ofBits_zero, zero_add, sum_idx3_swap]
  unfold tot part
  simp only [rowPart]
  refine Finset.sum_congr rfl fun b _ => Finset.sum_congr rfl fun d _ => Finset.sum_congr rfl fun t _ => ?_
  have hm : idx_main_v0 (idx_main_v51 (ix3 b t d)) = ix2 b t := idx_mask b t d
  rw [val_main_v58_apply, val_main_v52_apply, val_main_v50_apply, val_main_v51_apply, val_main_v0_apply, hm]
  rfl

theorem tot8 : val_main_v63 (F := Ideal) x1 x2 ix0 = tot x0 x1 x2 x3 8 := by
  rw [val_main_v63_apply, val_main_cst_11_apply, Ideal.ofBits_def, ofBits_zero, zero_add, sum_idx3_swap]
  unfold tot part
  simp only [rowPart]
  refine Finset.sum_congr rfl fun b _ => Finset.sum_congr rfl fun d _ => Finset.sum_congr rfl fun t _ => ?_
  have hm : idx_main_v0 (idx_main_v53 (ix3 b t d)) = ix2 b t := idx_mask b t d
  rw [val_main_v62_apply, val_main_v54_apply, val_main_v53_apply, val_main_v0_apply, hm]
  rfl

theorem meanW_eq : val_main_v79 (F := Ideal) x3 ix0 = meanW x3 := by
  rw [val_main_v79_apply, val_main_v78_apply, val_main_cst_16_apply, val_main_cst_17_apply, sum_idx1]
  rfl

end Cert.MelLoss.Ref

end
-- ==== Proof.RefSumsDiff.lean ====
/- The reference's whole-array sums over first and second differences, and the counts of their masks, are the batch totals. -/
import proofs.«144318_j84593675862632_1_alg».proof.Proof.Gen.ReferenceIdeal.Read
import proofs.«144318_j84593675862632_1_alg».proof.Proof.MelLoss
import proofs.«144318_j84593675862632_1_alg».proof.Proof.LibSumIdx
import Idealize.ShloMosaic.Lib.ValueIdx
import Idealize.ShloMosaic.Lib.Pipeline.Value
import Idealize.ShloMosaic.PureOps.Ideal.Laws

noncomputable section

open scoped BigOperators

namespace Cert.MelLoss.Ref

open Idealize.ShloMosaic Idealize.ShloMosaic.ValueIdx Cert.ReferenceIdeal Cert.ReferenceIdeal.Read Cert.MelLoss Cert.LibSumIdx

variable (x0 x1 : (⟨S64x4000x80, .f32⟩ : BufTy).Contents (Elt Ideal)) (x2 : (⟨S64x4000, .f32⟩ : BufTy).Contents (Elt Ideal))
  (x3 : (⟨S80, .f32⟩ : BufTy).Contents (Elt Ideal))

/-! ## The layout operations at coordinates

  A slice [1 : n] along the frame axis reads frame t + 1, a slice [0 : n − 1] reads frame t; a broadcast along the
  band axis forgets the band. -/

private theorem idx_main_v10_ix3 (b : Fin 64) (t : Fin 3999) (d : Fin 80) :
    idx_main_v10 (ix3 b t d) = ix3 b (up1 t) d := by
  funext a
  match a with
  | ⟨0, _⟩ => rfl
  | ⟨1, _⟩ => exact Fin.ext (Nat.add_comm 1 t.val)
  | ⟨2, _⟩ => rfl
private theorem idx_main_v11_ix3 (b : Fin 64) (t : Fin 3999) (d : Fin 80) :
    idx_main_v11 (ix3 b t d) = ix3 b (lo1 t) d := by
  funext a
  match a with
  | ⟨0, _⟩ => rfl
  | ⟨1, _⟩ => exact Fin.ext rfl
  | ⟨2, _⟩ => rfl
private theorem idx_main_v13_ix3 (b : Fin 64) (t : Fin 3999) (d : Fin 80) :
    idx_main_v13 (ix3 b t d) = ix3 b (up1 t) d := by
  funext a
  match a with
  | ⟨0, _⟩ => rfl
  | ⟨1, _⟩ => exact Fin.ext (Nat.add_comm 1 t.val)
  | ⟨2, _⟩ => rfl
private theorem idx_main_v14_ix3 (b : Fin 64) (t : Fin 3999) (d : Fin 80) :
    idx_main_v14 (ix3 b t d) = ix3 b (lo1 t) d := by
  funext a
  match a with
  | ⟨0, _⟩ => rfl
  | ⟨1, _⟩ => exact Fin.ext rfl
  | ⟨2, _⟩ => rfl
private theorem idx_main_v29_ix3 (b : Fin 64) (t : Fin 3998) (d : Fin 80) :
    idx_main_v29 (ix3 b t d) = ix3 b (up2 t) d := by
  funext a
  match a with
  | ⟨0, _⟩ => rfl
  | ⟨1, _⟩ => exact Fin.ext (Nat.add_comm 1 t.val)
  | ⟨2, _⟩ => rfl
private theorem idx_main_v30_ix3 (b : Fin 64) (t : Fin 3998) (d : Fin 80) :
    idx_main_v30 (ix3 b t d) = ix3 b (lo2 t) d := by
  funext a
  match a with
  | ⟨0, _⟩ => rfl
  | ⟨1, _⟩ => exact Fin.ext rfl
  | ⟨2, _⟩ => rfl
private theorem idx_main_v32_ix3 (b : Fin 64) (t : Fin 3998) (d : Fin 80) :
    idx_main_v32 (ix3 b t d) = ix3 b (up2 t) d := by
  funext a
  match a with
  | ⟨0, _⟩ => rfl
  | ⟨1, _⟩ => exact Fin.ext (Nat.add_comm 1 t.val)
  | ⟨2, _⟩ => rfl
private theorem idx_main_v33_ix3 (b : Fin 64) (t : Fin 3998) (d : Fin 80) :
    idx_main_v33 (ix3 b t d) = ix3 b (lo2 t) d := by
  funext a
  match a with
  | ⟨0, _⟩ => rfl
  | ⟨1, _⟩ => exact Fin.ext rfl
  | ⟨2, _⟩ => rfl

private theorem idx_main_v22_ix3 (b : Fin 64) (t : Fin 3999) (d : Fin 80) :
    idx_main_v22 (ix3 b t d) = ix3 b t (⟨0, Nat.one_pos⟩ : Fin 1) := by
  funext a
  match a with
  | ⟨0, _⟩ => rfl
  | ⟨1, _⟩ => rfl
  | ⟨2, _⟩ => rfl

private theorem idx_main_v25_ix3 (b : Fin 64) (t : Fin 3999) (d : Fin 80) :
    idx_main_v25 (ix3 b t d) = ix3 b t (⟨0, Nat.one_pos⟩ : Fin 1) := by
  funext a
  match a with
  | ⟨0, _⟩ => rfl
  | ⟨1, _⟩ => rfl
  | ⟨2, _⟩ => rfl

private theorem idx_main_v19_ix3 (b : Fin 64) (t : Fin 3999) (c : Fin 1) :
    idx_main_v19 (ix3 b t c) = ix2 b t := by
  funext a
  match a with
  | ⟨0, _⟩ => rfl
  | ⟨1, _⟩ => rfl

private theorem idx_main_v16_ix2 (b : Fin 64) (t : Fin 3999) : idx_main_v16 (ix2 b t) = ix2 b (up1 t) := by
  funext a
  match a with
  | ⟨0, _⟩ => rfl
  | ⟨1, _⟩ => exact Fin.ext (Nat.add_comm 1 t.val)

private theorem idx_main_v17_ix2 (b : Fin 64) (t : Fin 3999) : idx_main_v17 (ix2 b t) = ix2 b (lo1 t) := by
  funext a
  match a with
  | ⟨0, _⟩ => rfl
  | ⟨1, _⟩ => rfl

private theorem idx_main_v43_ix3 (b : Fin 64) (t : Fin 3998) (d : Fin 80) :
    idx_main_v43 (ix3 b t d) = ix3 b t (⟨0, Nat.one_pos⟩ : Fin 1) := by
  funext a
  match a with
  | ⟨0, _⟩ => rfl
  | ⟨1, _⟩ => rfl
  | ⟨2, _⟩ => rfl

private theorem idx_main_v46_ix3 (b : Fin 64) (t : Fin 3998) (d : Fin 80) :
    idx_main_v46 (ix3 b t d) = ix3 b t (⟨0, Nat.one_pos⟩ : Fin 1) := by
  funext a
  match a with
  | ⟨0, _⟩ => rfl
  | ⟨1, _⟩ => rfl
  | ⟨2, _⟩ => rfl

private theorem idx_main_v40_ix3 (b : Fin 64) (t : Fin 3998) (c : Fin 1) :
    idx_main_v40 (ix3 b t c) = ix2 b t := by
  funext a
  match a with
  | ⟨0, _⟩ => rfl
  | ⟨1, _⟩ => rfl

private theorem idx_main_v35_ix2 (b : Fin 64) (t : Fin 3998) : idx_main_v35 (ix2 b t) = ix2 b (up1 (up2 t)) := by
  funext a
  match a with
  | ⟨0, _⟩ => rfl
  | ⟨1, _⟩ => exact Fin.ext (Nat.add_comm 2 t.val)

private theorem idx_main_v36_ix2 (b : Fin 64) (t : Fin 3998) : idx_main_v36 (ix2 b t) = ix2 b (up1 (lo2 t)) := by
  funext a
  match a with
  | ⟨0, _⟩ => rfl
  | ⟨1, _⟩ => exact Fin.ext (Nat.add_comm 1 t.val)

private theorem idx_main_v38_ix2 (b : Fin 64) (t : Fin 3998) : idx_main_v38 (ix2 b t) = ix2 b (lo1 (lo2 t)) := by
  funext a
  match a with
  | ⟨0, _⟩ => rfl
  | ⟨1, _⟩ => rfl

/-! ## The elements of the two masks and of the two masked differences -/

/-- The first-difference mask, broadcast over the bands, at (b, t, d): the mask at frames t + 1 and t. -/
private theorem v19_at (b : Fin 64) (t : Fin 3999) (c : Fin 1) :
    val_main_v19 (F := Ideal) x2 (ix3 b t c) = msk1 (fun t => x2 (ix2 b t)) t := by
  rw [val_main_v19_apply, idx_main_v19_ix3, val_main_v18_apply, val_main_v16_apply, val_main_v17_apply,
    idx_main_v16_ix2, idx_main_v17_ix2]
  rfl

/-- The second-difference mask at (b, t): the mask at frames t + 2, t + 1 and t. -/
private theorem v40_at (b : Fin 64) (t : Fin 3998) (c : Fin 1) :
    val_main_v40 (F := Ideal) x2 (ix3 b t c) = msk2 (fun t => x2 (ix2 b t)) t := by
  rw [val_main_v40_apply, idx_main_v40_ix3, val_main_v39_apply, val_main_v37_apply, val_main_v35_apply,
    val_main_v36_apply, val_main_v38_apply, idx_main_v35_ix2, idx_main_v36_ix2, idx_main_v38_ix2]
  rfl

/-- The first difference of the prediction at (b, t, d). -/
private theorem v12_at (b : Fin 64) (t : Fin 3999) (d : Fin 80) :
    val_main_v12 (F := Ideal) x0 (ix3 b t d) = stp (fun t d => x0 (ix3 b t d)) t d := by
  rw [val_main_v12_apply, val_main_v10_apply, val_main_v11_apply, idx_main_v10_ix3, idx_main_v11_ix3]
  rfl

/-- The first difference of the target at (b, t, d). -/
private theorem v15_at (b : Fin 64) (t : Fin 3999) (d : Fin 80) :
    val_main_v15 (F := Ideal) x1 (ix3 b t d) = stp (fun t d => x1 (ix3 b t d)) t d := by
  rw [val_main_v15_apply, val_main_v13_apply, val_main_v14_apply, idx_main_v13_ix3, idx_main_v14_ix3]
  rfl

/-- The second difference of the prediction at (b, t, d). -/
private theorem v31_at (b : Fin 64) (t : Fin 3998) (d : Fin 80) :
    val_main_v31 (F := Ideal) x0 (ix3 b t d) = stp2 (fun t d => x0 (ix3 b t d)) t d := by
  rw [val_main_v31_apply, val_main_v29_apply, val_main_v30_apply, idx_main_v29_ix3, idx_main_v30_ix3, v12_at, v12_at]
  rfl

/-- The second difference of the target at (b, t, d). -/
private theorem v34_at (b : Fin 64) (t : Fin 3998) (d : Fin 80) :
    val_main_v34 (F := Ideal) x1 (ix3 b t d) = stp2 (fun t d => x1 (ix3 b t d)) t d := by
  rw [val_main_v34_apply, val_main_v32_apply, val_main_v33_apply, idx_main_v32_ix3, idx_main_v33_ix3, v15_at, v15_at]
  rfl

/-! ## The four totals -/

theorem tot3 : val_main_v27 (F := Ideal) x0 x1 x2 ix0 = tot x0 x1 x2 x3 3 := by
  rw [val_main_v27_apply, val_main_cst_4_apply, Ideal.ofBits_def, ofBits_zero, zero_add, sum_idx3_swap]
  refine Finset.sum_congr rfl fun b _ => ?_
  show _ = ∑ d : Fin 80, ∑ t : Fin 3999,
    absE (stp (fun t d => x0 (ix3 b t d)) t d - stp (fun t d => x1 (ix3 b t d)) t d) * msk1 (fun t => x2 (ix2 b t)) t
  refine Finset.sum_congr rfl fun d _ => Finset.sum_congr rfl fun t _ => ?_
  rw [val_main_v26_apply, val_main_v21_apply, val_main_v20_apply, val_main_v25_apply, idx_main_v25_ix3, v19_at,
    v12_at, v15_at]
  rfl

theorem tot5 : val_main_v48 (F := Ideal) x0 x1 x2 ix0 = tot x0 x1 x2 x3 5 := by
  rw [val_main_v48_apply, val_main_cst_7_apply, Ideal.ofBits_def, ofBits_zero, zero_add, sum_idx3_swap]
  refine Finset.sum_congr rfl fun b _ => ?_
  show _ = ∑ d : Fin 80, ∑ t : Fin 3998,
    absE (stp2 (fun t d => x0 (ix3 b t d)) t d - stp2 (fun t d => x1 (ix3 b t d)) t d) * msk2 (fun t => x2 (ix2 b t)) t
  refine Finset.sum_congr rfl fun d _ => Finset.sum_congr rfl fun t _ => ?_
  rw [val_main_v47_apply, val_main_v42_apply, val_main_v41_apply, val_main_v46_apply, idx_main_v46_ix3, v40_at,
    v31_at, v34_at]
  rfl

/-- The word of 80.0 is the real 80, the number of bands. -/
private theorem eighty_eq : eighty = (((80 : ℕ) : ℝ) : EReal) := by
  rw [Nat.cast_ofNat]
  exact ofBits_eighty

/-- The count of the first-difference mask, broadcast over the 80 bands (the mask finite). -/
theorem tot4 (hM : ∀ i, ∃ r : ℝ, x2 i = (r : EReal)) : val_main_v23 (F := Ideal) x2 ix0 = tot x0 x1 x2 x3 4 := by
  rw [val_main_v23_apply, val_main_cst_2_apply, Ideal.ofBits_def, ofBits_zero, zero_add, sum_idx3]
  refine Finset.sum_congr rfl fun b _ => ?_
  show _ = (∑ t : Fin 3999, msk1 (fun t => x2 (ix2 b t)) t) * eighty
  rw [eighty_eq, sum_mul_eq_sum_repeat 80 (fun t => msk1 (fun t => x2 (ix2 b t)) t)
    (fun t => finite_mul (hM _) (hM _))]
  refine Finset.sum_congr rfl fun t _ => Finset.sum_congr rfl fun d _ => ?_
  rw [val_main_v22_apply, idx_main_v22_ix3, v19_at]

/-- The count of the second-difference mask, broadcast over the 80 bands (the mask finite). -/
theorem tot6 (hM : ∀ i, ∃ r : ℝ, x2 i = (r : EReal)) : val_main_v44 (F := Ideal) x2 ix0 = tot x0 x1 x2 x3 6 := by
  rw [val_main_v44_apply, val_main_cst_5_apply, Ideal.ofBits_def, ofBits_zero, zero_add, sum_idx3]
  refine Finset.sum_congr rfl fun b _ => ?_
  show _ = (∑ t : Fin 3998, msk2 (fun t => x2 (ix2 b t)) t) * eighty
  rw [eighty_eq, sum_mul_eq_sum_repeat 80 (fun t => msk2 (fun t => x2 (ix2 b t)) t)
    (fun t => finite_mul (finite_mul (hM _) (hM _)) (hM _))]
  refine Finset.sum_congr rfl fun t _ => Finset.sum_congr rfl fun d _ => ?_
  rw [val_main_v43_apply, idx_main_v43_ix3, v40_at]

end Cert.MelLoss.Ref

end
-- ==== Proof.RefSumsCount.lean ====
/- The reference's counts of the mask, its band-mean sums, are the batch totals. -/
import proofs.«144318_j84593675862632_1_alg».proof.Proof.Gen.ReferenceIdeal.Read
import proofs.«144318_j84593675862632_1_alg».proof.Proof.MelLoss
import proofs.«144318_j84593675862632_1_alg».proof.Proof.LibSumIdx
import Idealize.ShloMosaic.Lib.ValueIdx
import Idealize.ShloMosaic.Lib.Pipeline.Value
import Idealize.ShloMosaic.PureOps.Ideal.Laws

noncomputable section

open scoped BigOperators

namespace Cert.MelLoss.Ref

open Idealize.ShloMosaic Idealize.ShloMosaic.ValueIdx Cert.ReferenceIdeal Cert.ReferenceIdeal.Read Cert.MelLoss Cert.LibSumIdx

variable (x0 x1 : (⟨S64x4000x80, .f32⟩ : BufTy).Contents (Elt Ideal)) (x2 : (⟨S64x4000, .f32⟩ : BufTy).Contents (Elt Ideal))
  (x3 : (⟨S80, .f32⟩ : BufTy).Contents (Elt Ideal))

/-- The mask broadcast over the 80 bands, summed from the word of +0.0 over every index, is the batch total of the
    per-utterance counts (Σ_t m) · 80: the broadcast reads the mask at (b, t) whatever the band, so the sum over
    (b, t, d) repeats each mask entry 80 times, and for a finite mask that is the row count times 80. -/
theorem count_bcast (hM : ∀ i, ∃ r : ℝ, x2 i = (r : EReal))
    (y : (⟨S64x4000x80, .f32⟩ : BufTy).Contents (Elt Ideal)) (hy : ∀ b t d, y (ix3 b t d) = x2 (ix2 b t)) :
    Ideal.ofBits .f32 0x00000000#32 + ∑ j : S64x4000x80.Idx, y j = tot x0 x1 x2 x3 2 := by
  rw [ofBits_zero, zero_add, sum_idx3]
  unfold tot part rowPart
  refine Finset.sum_congr rfl fun b _ => ?_
  simp only [hy]
  have h80 : eighty = (((80 : ℕ) : ℝ) : EReal) := by
    show Ideal.ofBits .f32 0x42A00000#32 = _
    rw [ofBits_eighty]
    norm_num
  rw [h80, sum_mul_eq_sum_repeat 80 (fun t => x2 (ix2 b t)) (fun t => hM _)]

/-- The broadcast of the mask to [64, 4000, 80] reads the mask at (b, t). -/
theorem v3_ix3 (b : Fin 64) (t : Fin 4000) (d : Fin 80) : val_main_v3 (F := Ideal) x2 (ix3 b t d) = x2 (ix2 b t) := by
  rw [val_main_v3_apply, val_main_v0_apply]
  exact congrArg x2 (funext fun a => Fin.ext (by match a with | ⟨0, _⟩ => rfl | ⟨1, _⟩ => rfl))

/-- The count of the mask broadcast over the 80 bands (the mask finite): the reference takes it three times. -/
theorem tot2_a (hM : ∀ i, ∃ r : ℝ, x2 i = (r : EReal)) : val_main_v4 (F := Ideal) x2 ix0 = tot x0 x1 x2 x3 2 := by
  rw [val_main_v4_apply, val_main_cst_apply]
  exact count_bcast x0 x1 x2 x3 hM _ (v3_ix3 x2)
theorem tot2_b (hM : ∀ i, ∃ r : ℝ, x2 i = (r : EReal)) : val_main_v56 (F := Ideal) x2 ix0 = tot x0 x1 x2 x3 2 := by
  rw [val_main_v56_apply, val_main_cst_8_apply]
  exact count_bcast x0 x1 x2 x3 hM _ (v3_ix3 x2)
theorem tot2_c (hM : ∀ i, ∃ r : ℝ, x2 i = (r : EReal)) : val_main_v72 (F := Ideal) x2 ix0 = tot x0 x1 x2 x3 2 := by
  rw [val_main_v72_apply, val_main_cst_13_apply]
  exact count_bcast x0 x1 x2 x3 hM _ (v3_ix3 x2)

/-- The band sum of the prediction at (b, t), from the word of +0.0, over the word of 80.0: the mean over the bands. -/
theorem v83_ix2 (b : Fin 64) (t : Fin 4000) :
    val_main_v83 (F := Ideal) x0 (ix2 b t) = bandMean (fun t d => x0 (ix3 b t d)) t := by
  rw [val_main_v83_apply, val_main_v81_apply, val_main_v82_apply, val_main_cst_18_apply, val_main_cst_19_apply]
  simp only [Ideal.ofBits_def, Ideal.hostDivf_def]
  rw [ofBits_zero, zero_add]
  unfold bandMean
  refine congrArg (Ideal.div · eighty) (Finset.sum_congr rfl fun k _ => congrArg x0 ?_)
  exact funext fun a => Fin.ext (by match a with | ⟨0, _⟩ => rfl | ⟨1, _⟩ => rfl | ⟨2, _⟩ => rfl)

/-- The same for the target. -/
theorem v86_ix2 (b : Fin 64) (t : Fin 4000) :
    val_main_v86 (F := Ideal) x1 (ix2 b t) = bandMean (fun t d => x1 (ix3 b t d)) t := by
  rw [val_main_v86_apply, val_main_v84_apply, val_main_v85_apply, val_main_cst_20_apply, val_main_cst_21_apply]
  simp only [Ideal.ofBits_def, Ideal.hostDivf_def]
  rw [ofBits_zero, zero_add]
  unfold bandMean
  refine congrArg (Ideal.div · eighty) (Finset.sum_congr rfl fun k _ => congrArg x1 ?_)
  exact funext fun a => Fin.ext (by match a with | ⟨0, _⟩ => rfl | ⟨1, _⟩ => rfl | ⟨2, _⟩ => rfl)

/-- The sum over [64, 4000] of |mean_d p − mean_d q| · m, from the word of +0.0, is the batch total of the
    per-utterance sums over the frames. -/
theorem tot9 : val_main_v92 (F := Ideal) x0 x1 x2 ix0 = tot x0 x1 x2 x3 9 := by
  rw [val_main_v92_apply, val_main_cst_24_apply, Ideal.ofBits_def, ofBits_zero, zero_add, sum_idx2]
  unfold tot part rowPart
  refine Finset.sum_congr rfl fun b _ => Finset.sum_congr rfl fun t _ => ?_
  rw [val_main_v91_apply, val_main_v88_apply, val_main_v87_apply, v83_ix2, v86_ix2]
  rfl

/-- The sum of the mask over [64, 4000], from the word of +0.0, is the batch total of the per-utterance counts. -/
theorem tot10 : val_main_v89 (F := Ideal) x2 ix0 = tot x0 x1 x2 x3 10 := by
  rw [val_main_v89_apply, val_main_cst_22_apply, Ideal.ofBits_def, ofBits_zero, zero_add, sum_idx2]
  rfl

end Cert.MelLoss.Ref

end
-- ==== Proof.RefLoss.lean ====
/- The reference's result is the loss of its four arrays (the mask finite). -/
import proofs.«144318_j84593675862632_1_alg».proof.Proof.Gen.ReferenceIdeal.Read
import proofs.«144318_j84593675862632_1_alg».proof.Proof.MelLoss
import proofs.«144318_j84593675862632_1_alg».proof.Proof.RefSumsPlain
import proofs.«144318_j84593675862632_1_alg».proof.Proof.RefSumsDiff
import proofs.«144318_j84593675862632_1_alg».proof.Proof.RefSumsCount
import Idealize.ShloMosaic.Lib.ValueIdx
import Idealize.ShloMosaic.PureOps.Ideal.Laws

noncomputable section

open scoped BigOperators

namespace Cert.MelLoss.Ref

open Idealize.ShloMosaic Idealize.ShloMosaic.ValueIdx Cert.ReferenceIdeal Cert.ReferenceIdeal.Read Cert.MelLoss

variable (x0 x1 : (⟨S64x4000x80, .f32⟩ : BufTy).Contents (Elt Ideal)) (x2 : (⟨S64x4000, .f32⟩ : BufTy).Contents (Elt Ideal))
  (x3 : (⟨S80, .f32⟩ : BufTy).Contents (Elt Ideal))

/-- The reference's scalar result is the fixed combination of the eleven batch totals and of the mean band weight.
    Every scalar stage reads its operands at the one index of a rank-0 array; at the ideal instance the host's
    multiply, add, divide, maximum and square root are those of the extended reals, and the constants are the words of
    1, 1/2, 1/4 and the floor. Each of the fifteen reductions is then its total (the three counts of the mask
    broadcast over the bands are all total 2, which is where the mask's finiteness enters). -/
theorem ref_loss (hM : ∀ i, ∃ r : ℝ, x2 i = (r : EReal)) : val_main_v104 (F := Ideal) x0 x1 x2 x3 = fun _ => loss x0 x1 x2 x3 := by
  funext i
  rw [eq_ix0 i]
  simp only [val_main_v104_apply, val_main_v103_apply, val_main_v102_apply, val_main_v101_apply, val_main_v100_apply,
    val_main_v99_apply, val_main_v98_apply, val_main_v97_apply, val_main_v96_apply, val_main_v95_apply,
    val_main_v94_apply, val_main_v93_apply, val_main_v90_apply, val_main_v80_apply, val_main_v77_apply,
    val_main_v73_apply, val_main_v67_apply, val_main_v66_apply, val_main_v65_apply, val_main_v64_apply,
    val_main_v61_apply, val_main_v60_apply, val_main_v57_apply, val_main_v49_apply, val_main_v45_apply,
    val_main_v28_apply, val_main_v24_apply, val_main_v9_apply, val_main_v5_apply,
    val_main_cst_0_apply, val_main_cst_3_apply, val_main_cst_6_apply, val_main_cst_9_apply, val_main_cst_12_apply,
    val_main_cst_14_apply, val_main_cst_23_apply, val_main_cst_25_apply, val_main_cst_26_apply, val_main_cst_27_apply,
    val_main_cst_28_apply, val_main_cst_29_apply, val_main_cst_30_apply]
  rw [tot0 x0 x1 x2 x3, tot1 x0 x1 x2 x3, tot2_a x0 x1 x2 x3 hM, tot2_b x0 x1 x2 x3 hM, tot2_c x0 x1 x2 x3 hM,
    tot3 x0 x1 x2 x3, tot4 x0 x1 x2 x3 hM, tot5 x0 x1 x2 x3, tot6 x0 x1 x2 x3 hM, tot7 x0 x1 x2 x3, tot8 x0 x1 x2 x3,
    tot9 x0 x1 x2 x3, tot10 x0 x1 x2 x3, meanW_eq x3]
  rfl

end Cert.MelLoss.Ref

end
-- ==== Proof.MaskFinite.lean ====
/- Under the precondition every entry of the mask is a real number.

  The precondition is the conjunction of four tests, one per argument array, each "every entry's absolute value is
  below +∞" reduced by AND over the whole array from 1. If the conjunction is 1 then the third test is 1, so every
  entry x of the mask has max x (−x) < ⊤, which excludes both infinities. -/
import proofs.«144318_j84593675862632_1_alg».proof.Pre_finite_inputs
import Idealize.ShloMosaic.PureOps.Ideal
import Idealize.ShloMosaic.Lib.ValueIdx
import Idealize.ShloMosaic.Lib.ReduceAll

noncomputable section

namespace Cert.MelLoss

open Idealize.ShloMosaic Idealize.ShloMosaic.ValueIdx

theorem mask_finite [Cert.Pre_finite_inputs.Facts]
    (a0 a1 : FVec Ideal Cert.Pre_finite_inputs.S64x4000x80 .f32) (a2 : FVec Ideal Cert.Pre_finite_inputs.S64x4000 .f32)
    (a3 : FVec Ideal Cert.Pre_finite_inputs.S80 .f32)
    (h : Cert.Pre_finite_inputs.fn (F := Ideal) a0 a1 a2 a3 = fun _ => 1#1) :
    ∀ i, ∃ r : ℝ, a2 i = (r : EReal) := by
  intro i
  -- The precondition's one result word is 1; it is ((t₀ ∧ t₁) ∧ t₂) ∧ t₃, so the mask's test t₂ is 1.
  have h0 := congrFun h ValueIdx.ix0
  dsimp only [Cert.Pre_finite_inputs.fn, Cert.Pre_finite_inputs.fn_part1] at h0
  have h1 := (IntOp.andi_eq_one.1 h0).1
  have h2 := (IntOp.andi_eq_one.1 h1).2
  -- t₂ reduces the whole array by AND into a result of one index, so the comparison is 1 at every entry.
  haveI : Subsingleton Cert.Pre_finite_inputs.S_.Idx := ⟨fun a b => funext fun d => d.elim0⟩
  have h3 := Host.reduce_andi_all _ _ _ _ _ h2 i
  -- Over the extended reals that comparison is |x| < c with |x| = max x (−x) and c the f32 word of +∞, which denotes ⊤.
  have h4 : Ideal.cmp .olt (max (a2 i) (-(a2 i))) (Ideal.ofBits .f32 0x7F800000#32) = 1#1 := h3
  have htop : Ideal.ofBits .f32 0x7F800000#32 = (⊤ : EReal) := by simp [Ideal.ofBits, Ideal.ieee]
  rw [htop] at h4
  have hlt : max (a2 i : EReal) (-(a2 i)) < ⊤ := by
    by_contra hn
    simp [Ideal.cmp, hn] at h4
  -- max x (−x) < ⊤ fails at x = ⊥ (−⊥ = ⊤) and at x = ⊤; what is left is a real.
  obtain ⟨x, hx⟩ : ∃ x : EReal, a2 i = x := ⟨_, rfl⟩
  rw [hx] at hlt ⊢
  induction x using EReal.rec with
  | bot => simp at hlt
  | coe r => exact ⟨r, rfl⟩
  | top => simp at hlt

end Cert.MelLoss

end
-- ==== Proof.lean ====
/-
  The certificate of the masked mel-spectrogram loss kernel against its reference.

  Both programs compute one function of their four arrays (a prediction and a target [64, 4000, 80], a frame mask
  [64, 4000], band weights [80]): `MelLoss.loss`, a fixed combination of eleven totals over the batch and of the
  mean band weight (Proof/MelLoss.lean). The kernel takes the totals one utterance per grid point, accumulating them
  in a scratch buffer it zeroes at the first point, and stores the combination at the last point; the reference
  takes each total as one whole-array sum. On the extended reals the two agree: sums may be taken in any order, and
  the three counts, which the kernel takes as (Σ_t mask)·80 per utterance and the reference as the sum of the mask
  broadcast over the 80 bands, agree because the mask is finite under the precondition.

  The frames of the two kernel programs are the generated ones; the reference's frame is its generated run with the
  result dropped. The idealization rewrote nothing, so `preserves` is trivial. For `algebraic`: the kernel's run
  ends with the result at the loss (Proof/KernelValue.lean, over Proof/Accumulate.lean's induction on the grid
  points), the reference's generated run ends with its last stage, which is the loss (Proof/RefLoss.lean), and the
  arrays agree.
-/
import proofs.«144318_j84593675862632_1_alg».proof.Defs
import proofs.«144318_j84593675862632_1_alg».proof.Proof.Gen.Kernel
import proofs.«144318_j84593675862632_1_alg».proof.Proof.Gen.Kernel.Skeleton
import proofs.«144318_j84593675862632_1_alg».proof.Proof.Gen.Kernel.Launch
import proofs.«144318_j84593675862632_1_alg».proof.Proof.Gen.Kernel.Points
import proofs.«144318_j84593675862632_1_alg».proof.Proof.Gen.Kernel.Frame
import proofs.«144318_j84593675862632_1_alg».proof.Proof.Gen.KernelIdeal
import proofs.«144318_j84593675862632_1_alg».proof.Proof.Gen.KernelIdeal.Skeleton
import proofs.«144318_j84593675862632_1_alg».proof.Proof.Gen.KernelIdeal.Launch
import proofs.«144318_j84593675862632_1_alg».proof.Proof.Gen.KernelIdeal.Points
import proofs.«144318_j84593675862632_1_alg».proof.Proof.Gen.KernelIdeal.Frame
import proofs.«144318_j84593675862632_1_alg».proof.Proof.Gen.ReferenceIdeal
import proofs.«144318_j84593675862632_1_alg».proof.Proof.Gen.Pre_finite_inputs
import proofs.«144318_j84593675862632_1_alg».proof.Proof.Gen.ReferenceIdeal.Run
import proofs.«144318_j84593675862632_1_alg».proof.Proof.Gen.ReferenceIdeal.Read
import proofs.«144318_j84593675862632_1_alg».proof.Proof.KernelValue
import proofs.«144318_j84593675862632_1_alg».proof.Proof.RefLoss
import proofs.«144318_j84593675862632_1_alg».proof.Proof.MaskFinite
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's frame: its run, the result dropped
    exact fun m ρ _ => (θ_run Cert.ReferenceIdeal.defs _ _).mono (fun _ h c => (h c).2)
      (Cert.ReferenceIdeal.Value.run (F := Ideal) m ρ)
  · -- both programs end at the loss of the arrays they agree on
    intro m ρ m' ρ' hpre hagree
    refine ⟨fun c => (fun _ => Cert.MelLoss.loss (Cert.MelLoss.Blocks.arrP m c) (Cert.MelLoss.Blocks.arrQ m c)
        (Cert.MelLoss.Blocks.arrM m c) (Cert.MelLoss.Blocks.arrW m c)), Cert.MelLoss.KernelValue.run m ρ, ?_⟩
    refine (θ_run Cert.ReferenceIdeal.defs _ _).mono (fun _ h c => ⟨(h c).1.trans ?_, (h c).2⟩)
      (Cert.ReferenceIdeal.Value.run (F := Ideal) m' ρ')
    rw [Cert.ReferenceIdeal.Read.val_main_v104_eq, (hagree c).1, (hagree c).2.1, (hagree c).2.2.1, (hagree c).2.2.2]
    exact Cert.MelLoss.Ref.ref_loss _ _ _ _ (Cert.MelLoss.mask_finite _ _ _ _ (hpre c))⟩

end Cert.Proof

end
